-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x1376 : Shape := ⟨2, ![4096, 1376]⟩
abbrev S32x11008 : Shape := ⟨2, ![32, 11008]⟩
abbrev S32x1376 : Shape := ⟨2, ![32, 1376]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S1024x4096 .f32) (main_arg1 : IVec S4096x1376 32) (main_arg2 : FVec F S32x11008 .f32) (main_arg3 : IVec S32x1376 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S1024x4096 : Shape := ⟨2, ![1024, 4096]⟩
abbrev S4096x1376 : Shape := ⟨2, ![4096, 1376]⟩
abbrev S32x11008 : Shape := ⟨2, ![32, 11008]⟩
abbrev S32x1376 : Shape := ⟨2, ![32, 1376]⟩
abbrev S_ : Shape := ⟨0, ![]⟩
abbrev S4096x1536 : Shape := ⟨2, ![4096, 1536]⟩
abbrev S32x1536 : Shape := ⟨2, ![32, 1536]⟩
abbrev S32x1x1536 : Shape := ⟨3, ![32, 1, 1536]⟩
abbrev S32x1376x8 : Shape := ⟨3, ![32, 1376, 8]⟩
abbrev S32x8x1376 : Shape := ⟨3, ![32, 8, 1376]⟩
abbrev S32x8x1536 : Shape := ⟨3, ![32, 8, 1536]⟩
abbrev S8x1024x1536 : Shape := ⟨3, ![8, 1024, 1536]⟩
abbrev S1024x512 : Shape := ⟨2, ![1024, 512]⟩
abbrev S512x256 : Shape := ⟨2, ![512, 256]⟩
abbrev S4x1x256 : Shape := ⟨3, ![4, 1, 256]⟩
abbrev S4x8x256 : Shape := ⟨3, ![4, 8, 256]⟩
abbrev S8x1024x256 : Shape := ⟨3, ![8, 1024, 256]⟩
abbrev S4x256 : Shape := ⟨2, ![4, 256]⟩
abbrev S4x128x256 : Shape := ⟨3, ![4, 128, 256]⟩
abbrev S1024x256 : Shape := ⟨2, ![1024, 256]⟩
abbrev S1x1024x256 : Shape := ⟨3, ![1, 1024, 256]⟩
abbrev S1024x1536x8 : Shape := ⟨3, ![1024, 1536, 8]⟩
abbrev S1024x12288 : Shape := ⟨2, ![1024, 12288]⟩
abbrev S1024x11008 : Shape := ⟨2, ![1024, 11008]⟩

abbrev nBuf : Space → Nat
  | .hbm => 21
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S4096x1376, .i32⟩
  | .hbm, ⟨2, _⟩ => ⟨S32x11008, .f32⟩
  | .hbm, ⟨3, _⟩ => ⟨S32x1376, .i32⟩
  | .hbm, ⟨4, _⟩ => ⟨S_, .i32⟩
  | .hbm, ⟨5, _⟩ => ⟨S_, .i32⟩
  | .hbm, ⟨6, _⟩ => ⟨S4096x1536, .i32⟩
  | .hbm, ⟨7, _⟩ => ⟨S_, .i32⟩
  | .hbm, ⟨8, _⟩ => ⟨S_, .i32⟩
  | .hbm, ⟨9, _⟩ => ⟨S32x1536, .i32⟩
  | .hbm, ⟨10, _⟩ => ⟨S32x1x1536, .i32⟩
  | .hbm, ⟨11, _⟩ => ⟨S32x1376x8, .f32⟩
  | .hbm, ⟨12, _⟩ => ⟨S32x8x1376, .f32⟩
  | .hbm, ⟨13, _⟩ => ⟨S_, .i32⟩
  | .hbm, ⟨14, _⟩ => ⟨S_, .f32⟩
  | .hbm, ⟨15, _⟩ => ⟨S32x8x1536, .f32⟩
  | .hbm, ⟨16, _⟩ => ⟨S1024x4096, .bf16⟩
  | .hbm, ⟨17, _⟩ => ⟨S8x1024x1536, .f32⟩
  | .hbm, ⟨18, _⟩ => ⟨S1024x1536x8, .f32⟩
  | .hbm, ⟨19, _⟩ => ⟨S1024x12288, .f32⟩
  | .hbm, ⟨20, _⟩ => ⟨S1024x11008, .f32⟩
  | .local _ .vmem, ⟨0, _⟩ => ⟨S1024x512, .bf16⟩
  | .local _ .vmem, ⟨1, _⟩ => ⟨S1024x512, .bf16⟩
  | .local _ .vmem, ⟨2, _⟩ => ⟨S512x256, .i32⟩
  | .local _ .vmem, ⟨3, _⟩ => ⟨S512x256, .i32⟩
  | .local _ .vmem, ⟨4, _⟩ => ⟨S4x1x256, .i32⟩
  | .local _ .vmem, ⟨5, _⟩ => ⟨S4x1x256, .i32⟩
  | .local _ .vmem, ⟨6, _⟩ => ⟨S4x8x256, .f32⟩
  | .local _ .vmem, ⟨7, _⟩ => ⟨S4x8x256, .f32⟩
  | .local _ .vmem, ⟨8, _⟩ => ⟨S8x1024x256, .f32⟩
  | .local _ .vmem, ⟨9, _⟩ => ⟨S8x1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S4096x1376_S4096x1536_000_01600 : S4096x1376.Pads (![0, 0] : Fin 2 → Nat) ![0, 160] ![0, 0] S4096x1536
  h_S_ : 0 < S_.numel
  pads_S32x1376_S32x1536_000_01600 : S32x1376.Pads (![0, 0] : Fin 2 → Nat) ![0, 160] ![0, 0] S32x1536
  shapeCasts_S32x1536_S32x1x1536 : S32x1536.ShapeCasts S32x1x1536
  shapeCasts_S32x11008_S32x1376x8 : S32x11008.ShapeCasts S32x1376x8
  transposes_S32x1376x8_S32x8x1376_0_2_1 : S32x1376x8.Transposes [0, 2, 1] S32x8x1376
  pads_S32x8x1376_S32x8x1536_000_000_01600 : S32x8x1376.Pads (![0, 0, 0] : Fin 3 → Nat) ![0, 0, 160] ![0, 0, 0] S32x8x1536
  bitsLt_bf16_f32 : FTy.bits .bf16 < FTy.bits .f32
  inb_S8x1024x256_S8x1024x256_0_0_0 : ∀ a, (![0, 0, 0] : Fin 3 → Nat) a + S8x1024x256.size a ≤ S8x1024x256.size a
  h_S8x1024x256 : 0 < S8x1024x256.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4x1x256_S4x1x256_0_0_0 : ∀ a, (![0, 0, 0] : Fin 3 → Nat) a + S4x1x256.size a ≤ S4x1x256.size a
  h_S4x1x256 : 0 < S4x1x256.numel
  shapeCasts_S4x1x256_S4x256 : S4x1x256.ShapeCasts S4x256
  shapeCasts_S512x256_S4x128x256 : S512x256.ShapeCasts S4x128x256
  shapeCasts_S4x256_S4x1x256 : S4x256.ShapeCasts S4x1x256
  broadcasts_S4x1x256_S4x128x256 : S4x1x256.Broadcasts S4x128x256
  inb_S4x8x256_S4x1x256_0_0_0 : ∀ a, (![0, 0, 0] : Fin 3 → Nat) a + S4x1x256.size a ≤ S4x8x256.size a
  shapeCasts_S4x128x256_S512x256 : S4x128x256.ShapeCasts S512x256
  inb_S8x1024x256_S1x1024x256_0_0_0 : ∀ a, (![0, 0, 0] : Fin 3 → Nat) a + S1x1024x256.size a ≤ S8x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S4x8x256_S4x1x256_0_1_0 : ∀ a, (![0, 1, 0] : Fin 3 → Nat) a + S4x1x256.size a ≤ S4x8x256.size a
  inb_S8x1024x256_S1x1024x256_1_0_0 : ∀ a, (![1, 0, 0] : Fin 3 → Nat) a + S1x1024x256.size a ≤ S8x1024x256.size a
  inb_S4x8x256_S4x1x256_0_2_0 : ∀ a, (![0, 2, 0] : Fin 3 → Nat) a + S4x1x256.size a ≤ S4x8x256.size a
  inb_S8x1024x256_S1x1024x256_2_0_0 : ∀ a, (![2, 0, 0] : Fin 3 → Nat) a + S1x1024x256.size a ≤ S8x1024x256.size a
  inb_S4x8x256_S4x1x256_0_3_0 : ∀ a, (![0, 3, 0] : Fin 3 → Nat) a + S4x1x256.size a ≤ S4x8x256.size a
  inb_S8x1024x256_S1x1024x256_3_0_0 : ∀ a, (![3, 0, 0] : Fin 3 → Nat) a + S1x1024x256.size a ≤ S8x1024x256.size a
  inb_S4x8x256_S4x1x256_0_4_0 : ∀ a, (![0, 4, 0] : Fin 3 → Nat) a + S4x1x256.size a ≤ S4x8x256.size a
  inb_S8x1024x256_S1x1024x256_4_0_0 : ∀ a, (![4, 0, 0] : Fin 3 → Nat) a + S1x1024x256.size a ≤ S8x1024x256.size a
  inb_S4x8x256_S4x1x256_0_5_0 : ∀ a, (![0, 5, 0] : Fin 3 → Nat) a + S4x1x256.size a ≤ S4x8x256.size a
  inb_S8x1024x256_S1x1024x256_5_0_0 : ∀ a, (![5, 0, 0] : Fin 3 → Nat) a + S1x1024x256.size a ≤ S8x1024x256.size a
  inb_S4x8x256_S4x1x256_0_6_0 : ∀ a, (![0, 6, 0] : Fin 3 → Nat) a + S4x1x256.size a ≤ S4x8x256.size a
  inb_S8x1024x256_S1x1024x256_6_0_0 : ∀ a, (![6, 0, 0] : Fin 3 → Nat) a + S1x1024x256.size a ≤ S8x1024x256.size a
  inb_S4x8x256_S4x1x256_0_7_0 : ∀ a, (![0, 7, 0] : Fin 3 → Nat) a + S4x1x256.size a ≤ S4x8x256.size a
  inb_S8x1024x256_S1x1024x256_7_0_0 : ∀ a, (![7, 0, 0] : Fin 3 → Nat) a + S1x1024x256.size a ≤ S8x1024x256.size a
  transposes_S8x1024x1536_S1024x1536x8_1_2_0 : S8x1024x1536.Transposes [1, 2, 0] S1024x1536x8
  shapeCasts_S1024x1536x8_S1024x12288 : S1024x1536x8.ShapeCasts S1024x12288
  slices_S1024x12288_S1024x11008_0_0 : S1024x12288.Slices ![0, 0] S1024x11008
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .bf16 = 32 ∨ (Rect.block (s := S1024x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x1536.size a
  hwx0_1 : ∀ i : grid0.Coords, EltTy.bits .i32 = 32 ∨ (Rect.block (s := S4096x1536) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x256.size a ≤ S32x1x1536.size a
  hwx0_2 : ∀ i : grid0.Coords, EltTy.bits .i32 = 32 ∨ (Rect.block (s := S32x1x1536) S4x1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x8x256.size a ≤ S32x8x1536.size a
  hwx0_3 : ∀ i : grid0.Coords, EltTy.bits .f32 = 32 ∨ (Rect.block (s := S32x8x1536) S4x8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024x256.size a ≤ S8x1024x1536.size a
  hwx0_4 : ∀ i : grid0.Coords, EltTy.bits .f32 = 32 ∨ (Rect.block (s := S8x1024x1536) S8x1024x256.size (cc0_transform_4 i) (hinb0_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v6) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x1376 : Shape := ⟨2, ![4096, 1376]⟩
abbrev S32x11008 : Shape := ⟨2, ![32, 11008]⟩
abbrev S32x1376 : Shape := ⟨2, ![32, 1376]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S1024x11008 : Shape := ⟨2, ![1024, 11008]⟩

abbrev nBuf : Space → Nat
  | .hbm => 39
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1376, .i32⟩
  | .hbm, ⟨2, _⟩ => ⟨S32x11008, .f32⟩
  | .hbm, ⟨3, _⟩ => ⟨S32x1376, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S4096x1376x1, .i32⟩
  | .hbm, ⟨10, _⟩ => ⟨S1x1x8, .i32⟩
  | .hbm, ⟨11, _⟩ => ⟨S4096x1376x8, .i32⟩
  | .hbm, ⟨12, _⟩ => ⟨S4096x1376x8, .i32⟩
  | .hbm, ⟨13, _⟩ => ⟨S4096x1376x8, .i32⟩
  | .hbm, ⟨14, _⟩ => ⟨S_, .i32⟩
  | .hbm, ⟨15, _⟩ => ⟨S4096x1376x8, .i32⟩
  | .hbm, ⟨16, _⟩ => ⟨S4096x1376x8, .i32⟩
  | .hbm, ⟨17, _⟩ => ⟨S4096x11008, .i32⟩
  | .hbm, ⟨18, _⟩ => ⟨S4096x11008, .f32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x1376x1, .i32⟩
  | .hbm, ⟨23, _⟩ => ⟨S1x1x8, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S32x128x11008, .f32⟩
  | .hbm, ⟨33, _⟩ => ⟨S4096x11008, .f32⟩
  | .hbm, ⟨34, _⟩ => ⟨S32x128x11008, .f32⟩
  | .hbm, ⟨35, _⟩ => ⟨S4096x11008, .f32⟩
  | .hbm, ⟨36, _⟩ => ⟨S4096x11008, .f32⟩
  | .hbm, ⟨37, _⟩ => ⟨S4096x11008, .f32⟩
  | .hbm, ⟨38, _⟩ => ⟨S1024x11008, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  dot_S1024x4096_S4096x11008_S1024x11008_1_0_0_1_n_n_wf : DotDims.WF S1024x4096 S4096x11008 S1024x11008 [1] [0] [0] [1] [] []

variable [Facts₀]

def dot_S1024x4096_S4096x11008_S1024x11008_1_0_0_1_n_n : DotDims S1024x4096 S4096x11008 S1024x11008 where
  lhsContracting := [1]
  rhsContracting := [0]
  lhsNonContracting := [0]
  rhsNonContracting := [1]
  lhsBatch := []
  rhsBatch := []
  wf := dot_S1024x4096_S4096x11008_S1024x11008_1_0_0_1_n_n_wf

class Facts : Prop extends Facts₀ where

variable [Facts]
-- ==== Proof.Plane.lean ====
/-
  One plane of the kernel body, in one vocabulary.

  At a grid point the body holds a 1024×512 block of x, a 512×256 block of packed weights (read as 4 groups of 128
  rows), one packed zero-point row per group, and one row of scales per group and field. For each of the eight fields j
  it shifts both packed operands down by the field's bit offset, masks to four bits, subtracts the zero point from the
  weight as integers, converts the difference to a float, scales it by the group's scale, and multiplies the x block
  by the resulting 512×256 matrix (`part`); the product is added to plane j of the output block (`step`).
  The eight planes of the printed body are the same two functions at the eight bit offsets.
-/
import proofs.«428204_j79422535238420_3_alg».proof.Proof.Gen.KernelIdeal.Skeleton

noncomputable section

namespace Cert.KernelIdeal.Plane

open Idealize.ShloMosaic Cert.KernelIdeal Cert.KernelIdeal.Gen

variable {F : FTy → Type} [FloatOps F]

/-- The product of the x block with the dequantized weights of the field at bit offset `sh`. -/
def part (sh : BitVec 32) (xb : FVec F S1024x512 .bf16) (w : IVec S4x128x256 32) (z : IVec S4x256 32)
    (s : Vec F S4x1x256 .f32) : FVec F S1024x256 .f32 :=
  matmul dot_S1024x512_S512x256_S1024x256_1_0_0_1_n_n none xb
    (truncf .bf16
      (shapeCast S512x256
        (mulf
          (sitofp .f32
            (subi (andi (shrsi w (broadcast S4x128x256 sh)) (broadcast S4x128x256 15#32))
              (broadcastTo S4x128x256
                (shapeCast S4x1x256 (andi (shrsi z (broadcast S4x256 sh)) (broadcast S4x256 15#32)) shapeCasts_S4x256_S4x1x256)
                broadcasts_S4x1x256_S4x128x256)))
          (broadcastTo S4x128x256
            (shapeCast S4x1x256 (shapeCast S4x256 s shapeCasts_S4x1x256_S4x256) shapeCasts_S4x256_S4x1x256)
            broadcasts_S4x1x256_S4x128x256))
        shapeCasts_S4x128x256_S512x256)
      bitsLt_bf16_f32)
    (constant S1024x256 .f32 0x00000000#32)

/-- A plane of the output block with a product added to it. -/
def step (prev : Vec F S1x1024x256 .f32) (p : FVec F S1024x256 .f32) : FVec F S1x1024x256 .f32 :=
  shapeCast S1x1024x256 (addf (shapeCast S1024x256 prev shapeCasts_S1x1024x256_S1024x256) p) shapeCasts_S1024x256_S1x1024x256

/-! The eight planes of the printed body, field by field (bit offsets 0, 16, 4, 20, 8, 24, 12, 28). -/

theorem plane0 (v3 : Vec F S1024x512 .bf16) (v5 : Vec F S512x256 .i32) (v7 : Vec F S4x1x256 .i32) (s : Vec F S4x1x256 .f32)
    (prev : Vec F S1x1024x256 .f32) :
    k0_pay8 (k0_pay7 v3 v5 v7 s prev) = step prev (part 0#32 (k0_pay4 v3) (k0_pay6 v5) (k0_pay5 v7) s) := rfl

theorem plane1 (xb : FVec F S1024x512 .bf16) (z : IVec S4x256 32) (w : IVec S4x128x256 32) (s : Vec F S4x1x256 .f32)
    (prev : Vec F S1x1024x256 .f32) :
    k0_pay9 xb z w s prev = step prev (part 16#32 xb w z s) := rfl

theorem plane2 (xb : FVec F S1024x512 .bf16) (z : IVec S4x256 32) (w : IVec S4x128x256 32) (s : Vec F S4x1x256 .f32)
    (prev : Vec F S1x1024x256 .f32) :
    k0_pay11 xb (k0_pay10 z w) s prev = step prev (part 4#32 xb w z s) := rfl

theorem plane3 (xb : FVec F S1024x512 .bf16) (z : IVec S4x256 32) (w : IVec S4x128x256 32) (s : Vec F S4x1x256 .f32)
    (prev : Vec F S1x1024x256 .f32) :
    k0_pay13 (k0_pay12 xb z w s prev) = step prev (part 20#32 xb w z s) := rfl

theorem plane4 (xb : FVec F S1024x512 .bf16) (z : IVec S4x256 32) (w : IVec S4x128x256 32) (s : Vec F S4x1x256 .f32)
    (prev : Vec F S1x1024x256 .f32) :
    k0_pay14 xb z w s prev = step prev (part 8#32 xb w z s) := rfl

theorem plane5 (xb : FVec F S1024x512 .bf16) (z : IVec S4x256 32) (w : IVec S4x128x256 32) (s : Vec F S4x1x256 .f32)
    (prev : Vec F S1x1024x256 .f32) :
    k0_pay17 xb (k0_pay15 w) (k0_pay16 z) s prev = step prev (part 24#32 xb w z s) := rfl

theorem plane6 (xb : FVec F S1024x512 .bf16) (z : IVec S4x256 32) (w : IVec S4x128x256 32) (s : Vec F S4x1x256 .f32)
    (prev : Vec F S1x1024x256 .f32) :
    k0_pay1 (k0_pay18 xb z w s) prev = step prev (part 12#32 xb w z s) := rfl

theorem plane7 (xb : FVec F S1024x512 .bf16) (z : IVec S4x256 32) (w : IVec S4x128x256 32) (s : Vec F S4x1x256 .f32)
    (prev : Vec F S1x1024x256 .f32) :
    k0_pay2 xb z w s prev = step prev (part 28#32 xb w z s) := rfl

end Cert.KernelIdeal.Plane

end
-- ==== Proof.Spec.lean ====
/-
  The function both programs compute, stated once over the four argument arrays.

  A packed 32-bit word holds eight 4-bit fields. Field j sits at bit offset 4·σ(j), σ = (0, 4, 1, 5, 2, 6, 3, 7):
  it is the word shifted down arithmetically by that offset and masked to its low four bits, a number in [0, 15].
  Output column n = 8·c + j takes field j of packed column c. With rows grouped in runs of 128 (group g = k / 128),
  the dequantized weight is

      W[k, n] = (field_j(qweight[k, c]) − field_j(qzeros[g, c])) · scales[g, n],

  the two fields read as integers and then as reals, and the result is the matrix product

      out[r, n] = Σ_k x[r, k] · W[k, n]      (k over all 4096 rows)

  over the extended reals.
-/
import Idealize.ShloMosaic.PureOps.Ideal
import Idealize.ShloMosaic.Lib.ValueIdx

noncomputable section

namespace Cert.AwqSpec

open Idealize.ShloMosaic Idealize.ShloMosaic.ValueIdx

/-- Bit offset of field `j`: four times σ(j). -/
def shiftOf : Fin 8 → BitVec 32
  | 0 => 0#32 | 1 => 16#32 | 2 => 4#32 | 3 => 20#32 | 4 => 8#32 | 5 => 24#32 | 6 => 12#32 | 7 => 28#32

/-- Field `j` of a packed word: shifted down arithmetically, masked to four bits. -/
def nib (w : BitVec 32) (j : Fin 8) : BitVec 32 := (w.sshiftRight' (shiftOf j)) &&& 15#32

/-- The packed column an output column comes from. -/
def colOf (n : Fin 11008) : Fin 1376 := ⟨n.val / 8, by have := n.isLt; omega⟩
/-- The field of that packed column it takes. -/
def slotOf (n : Fin 11008) : Fin 8 := ⟨n.val % 8, Nat.mod_lt _ (by decide)⟩
/-- The group of 128 rows a row lies in. -/
def grpOf (k : Fin 4096) : Fin 32 := ⟨k.val / 128, by have := k.isLt; omega⟩

/-- A word read as a signed integer, as an extended real. -/
def toE (b : BitVec 32) : EReal := ((b.toInt : ℝ) : EReal)

/-- The dequantized weight at row `k`, output column `n`. -/
def W (qw : IVec ⟨2, ![4096, 1376]⟩ 32) (sc : FVec Ideal ⟨2, ![32, 11008]⟩ .f32) (qz : IVec ⟨2, ![32, 1376]⟩ 32)
    (k : Fin 4096) (n : Fin 11008) : EReal :=
  (toE (nib (qw (ix2 k (colOf n))) (slotOf n)) - toE (nib (qz (ix2 (grpOf k) (colOf n))) (slotOf n)))
    * sc (ix2 (grpOf k) n)

/-- The result at row `r`, column `n`: the product of `x` with the dequantized weight. -/
def Gat (x : FVec Ideal ⟨2, ![1024, 4096]⟩ .f32) (qw : IVec ⟨2, ![4096, 1376]⟩ 32)
    (sc : FVec Ideal ⟨2, ![32, 11008]⟩ .f32) (qz : IVec ⟨2, ![32, 1376]⟩ 32) (r : Fin 1024) (n : Fin 11008) : EReal :=
  ∑ k : Fin 4096, x (ix2 r k) * W qw sc qz k n

/-- The result array. -/
def G (x : FVec Ideal ⟨2, ![1024, 4096]⟩ .f32) (qw : IVec ⟨2, ![4096, 1376]⟩ 32)
    (sc : FVec Ideal ⟨2, ![32, 11008]⟩ .f32) (qz : IVec ⟨2, ![32, 1376]⟩ 32) : FVec Ideal ⟨2, ![1024, 11008]⟩ .f32 :=
  fun i => Gat x qw sc qz (i 0) (i 1)

theorem G_apply (x : FVec Ideal ⟨2, ![1024, 4096]⟩ .f32) (qw : IVec ⟨2, ![4096, 1376]⟩ 32)
    (sc : FVec Ideal ⟨2, ![32, 11008]⟩ .f32) (qz : IVec ⟨2, ![32, 1376]⟩ 32) (r : Fin 1024) (n : Fin 11008) :
    G x qw sc qz (ix2 r n) = Gat x qw sc qz r n := rfl

end Cert.AwqSpec

end
-- ==== Proof.PlaneValue.lean ====
/-
  One plane of the kernel body over the extended reals, entry by entry.

  Entry (r, c) of a plane's product is the sum over the 512 rows k of the block — row k lying in group k / 128 at
  position k mod 128 — of x[r, k] times the dequantized weight: the difference of the two masked fields, read as a
  signed integer and then as a real, times the group's scale. Adding a product to a plane adds entry by entry.
-/
import proofs.«428204_j79422535238420_3_alg».proof.Proof.Plane
import proofs.«428204_j79422535238420_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Plane

open Idealize.ShloMosaic Idealize.ShloMosaic.ValueIdx Cert.KernelIdeal Cert.KernelIdeal.Gen

/-- The group of 128 rows a row of the block lies in. -/
def grp4 (k : Fin 512) : Fin 4 := ⟨k.val / 128, by have := k.isLt; omega⟩
/-- Its position inside the group. -/
def row128 (k : Fin 512) : Fin 128 := ⟨k.val % 128, Nat.mod_lt _ (by decide)⟩

/-- The x block is passed on as it is loaded. -/
theorem pay4_eq (v3 : Vec Ideal S1024x512 .bf16) : k0_pay4 (F := Ideal) v3 = v3 := by
  unfold k0_pay4
  exact shapeCast_self v3 _

/-- The zero-point block loses its unit middle axis. -/
theorem pay5_apply (v7 : Vec Ideal S4x1x256 .i32) (g : Fin 4) (c : Fin 256) :
    k0_pay5 (F := Ideal) v7 (ix2 g c) = v7 (ix3 g (0 : Fin 1) c) := by
  unfold k0_pay5
  exact shapeCast_apply v7 _ (ix2 g c) (ix3 g (0 : Fin 1) c) (by
    rw [Shape.rowMajor_val_three, Shape.rowMajor_val_two]
    show (g.val * 1 + 0) * 256 + c.val = g.val * 256 + c.val
    omega)

/-- The weight block's 512 rows read as 4 groups of 128. -/
theorem pay6_apply (v5 : Vec Ideal S512x256 .i32) (g : Fin 4) (q : Fin 128) (c : Fin 256) :
    k0_pay6 (F := Ideal) v5 (ix3 g q c) = v5 (ix2 (⟨g.val * 128 + q.val, by have := g.isLt; have := q.isLt; omega⟩ : Fin 512) c) := by
  unfold k0_pay6
  refine (shapeCast_apply _ _ (ix3 g q c)
    (ix2 (⟨g.val * 128 + q.val, by have := g.isLt; have := q.isLt; omega⟩ : Fin 512) c) ?_).trans ?_
  · rw [Shape.rowMajor_val_three, Shape.rowMajor_val_two]
    show (g.val * 128 + q.val) * 256 + c.val = (g.val * 128 + q.val) * 256 + c.val
    rfl
  · exact congrFun (shapeCast_self v5 _) _

/-- Adding a product to a plane adds entry by entry. -/
theorem step_apply (prev : FVec Ideal S1x1024x256 .f32) (p : FVec Ideal S1024x256 .f32) (r : Fin 1024) (c : Fin 256) :
    step (F := Ideal) prev p (ix3 (0 : Fin 1) r c) = prev (ix3 (0 : Fin 1) r c) + p (ix2 r c) := by
  unfold step
  refine (shapeCast_ab_1ab_apply _ _ (0 : Fin 1) r c).trans ?_
  refine (addf_apply _ _ _).trans ?_
  exact congrArg (· + p (ix2 r c)) (shapeCast_1ab_ab_apply prev _ r c)

/-! The matrix product read at an entry. -/

/-- The left operand's row is the output row. -/
theorem lhs_dot_0 (j : S1024x256.Idx) (k : dot_S1024x512_S512x256_S1024x256_1_0_0_1_n_n.contr.Idx) :
    (dot_S1024x512_S512x256_S1024x256_1_0_0_1_n_n.lhsIdx j k 0 : ℕ) = j 0 := by
  simp [DotDims.lhsIdx, dot_S1024x512_S512x256_S1024x256_1_0_0_1_n_n]; rfl
/-- The left operand's column is the contracted coordinate. -/
theorem lhs_dot_1 (j : S1024x256.Idx) (k : dot_S1024x512_S512x256_S1024x256_1_0_0_1_n_n.contr.Idx) :
    (dot_S1024x512_S512x256_S1024x256_1_0_0_1_n_n.lhsIdx j k 1 : ℕ) = k ⟨0, by decide⟩ := by
  simp [DotDims.lhsIdx, dot_S1024x512_S512x256_S1024x256_1_0_0_1_n_n]; rfl
/-- The right operand's row is the contracted coordinate. -/
theorem rhs_dot_0 (j : S1024x256.Idx) (k : dot_S1024x512_S512x256_S1024x256_1_0_0_1_n_n.contr.Idx) :
    (dot_S1024x512_S512x256_S1024x256_1_0_0_1_n_n.rhsIdx j k 0 : ℕ) = k ⟨0, by decide⟩ := by
  simp [DotDims.rhsIdx, dot_S1024x512_S512x256_S1024x256_1_0_0_1_n_n]; rfl
/-- The right operand's column is the output column. -/
theorem rhs_dot_1 (j : S1024x256.Idx) (k : dot_S1024x512_S512x256_S1024x256_1_0_0_1_n_n.contr.Idx) :
    (dot_S1024x512_S512x256_S1024x256_1_0_0_1_n_n.rhsIdx j k 1 : ℕ) = j 1 := by
  simp [DotDims.rhsIdx, dot_S1024x512_S512x256_S1024x256_1_0_0_1_n_n]; rfl

/-- The product into a zero accumulator, at an entry: the sum over the 512 contracted rows. -/
theorem matmul_zero_apply (l : FVec Ideal S1024x512 .bf16) (m : FVec Ideal S512x256 .bf16) (r : Fin 1024) (c : Fin 256) :
    matmul dot_S1024x512_S512x256_S1024x256_1_0_0_1_n_n none l m (constant S1024x256 .f32 0x00000000#32) (ix2 r c)
      = ∑ k : Fin 512, l (ix2 r k) * m (ix2 k c) := by
  show FloatOps.matmul dot_S1024x512_S512x256_S1024x256_1_0_0_1_n_n none l m (constant S1024x256 .f32 0x00000000#32) (ix2 r c) = _
  rw [Ideal.matmul_constant_zero_apply,
    ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have hl : dot_S1024x512_S512x256_S1024x256_1_0_0_1_n_n.lhsIdx (ix2 r c)
      ((contrEquiv1 dot_S1024x512_S512x256_S1024x256_1_0_0_1_n_n 512 rfl rfl).symm k) = ix2 r k := by
    funext ax; apply Fin.ext
    match ax with
    | ⟨0, _⟩ => exact lhs_dot_0 _ _
    | ⟨1, _⟩ => exact (lhs_dot_1 _ _).trans hk
  have hr : dot_S1024x512_S512x256_S1024x256_1_0_0_1_n_n.rhsIdx (ix2 r c)
      ((contrEquiv1 dot_S1024x512_S512x256_S1024x256_1_0_0_1_n_n 512 rfl rfl).symm k) = ix2 k c := by
    funext ax; apply Fin.ext
    match ax with
    | ⟨0, _⟩ => exact (rhs_dot_0 _ _).trans hk
    | ⟨1, _⟩ => exact rhs_dot_1 _ _
  rw [hl, hr]

/-! The dequantized weight read at an entry. -/

/-- The 4 groups of 128 rows read as 512 rows: row k comes from group k / 128, position k mod 128. -/
theorem cast_rows_apply {α : Type} (x : S4x128x256.Idx → α) (h : S4x128x256.ShapeCasts S512x256) (k : Fin 512) (c : Fin 256) :
    shapeCast S512x256 x h (ix2 k c) = x (ix3 (grp4 k) (row128 k) c) :=
  shapeCast_apply x h (ix2 k c) (ix3 (grp4 k) (row128 k) c) (by
    rw [Shape.rowMajor_val_three, Shape.rowMajor_val_two]
    show (k.val / 128 * 128 + k.val % 128) * 256 + c.val = k.val * 256 + c.val
    rw [Nat.div_add_mod' k.val 128])

/-- One row per group laid along the group's 128 rows. -/
theorem bcast_rows_apply {α : Type} (x : S4x1x256.Idx → α) (h : S4x1x256.Broadcasts S4x128x256)
    (g : Fin 4) (q : Fin 128) (c : Fin 256) :
    broadcastTo S4x128x256 x h (ix3 g q c) = x (ix3 g (0 : Fin 1) c) := by
  refine broadcastTo_apply x h (ix3 g q c) (ix3 g (0 : Fin 1) c) fun a => ?_
  match a with
  | ⟨0, _⟩ => rfl
  | ⟨1, _⟩ => rfl
  | ⟨2, _⟩ => rfl

/-- A unit middle axis put in. -/
theorem cast_addMid_apply {α : Type} (x : S4x256.Idx → α) (h : S4x256.ShapeCasts S4x1x256) (g : Fin 4) (u : Fin 1) (c : Fin 256) :
    shapeCast S4x1x256 x h (ix3 g u c) = x (ix2 g c) :=
  shapeCast_apply x h (ix3 g u c) (ix2 g c) (by
    have hu : u.val = 0 := by omega
    rw [Shape.rowMajor_val_three, Shape.rowMajor_val_two]
    show g.val * 256 + c.val = (g.val * 1 + u.val) * 256 + c.val
    rw [hu, Nat.mul_one, Nat.add_zero])

/-- A unit middle axis taken out. -/
theorem cast_dropMid_apply {α : Type} (x : S4x1x256.Idx → α) (h : S4x1x256.ShapeCasts S4x256) (g : Fin 4) (c : Fin 256) :
    shapeCast S4x256 x h (ix2 g c) = x (ix3 g (0 : Fin 1) c) :=
  shapeCast_apply x h (ix2 g c) (ix3 g (0 : Fin 1) c) (by
    rw [Shape.rowMajor_val_three, Shape.rowMajor_val_two]
    show (g.val * 1 + 0) * 256 + c.val = g.val * 256 + c.val
    rw [Nat.mul_one, Nat.add_zero])

/-- A plane's product at an entry: the sum over the block's rows of x times the dequantized weight. -/
theorem part_apply (sh : BitVec 32) (xb : FVec Ideal S1024x512 .bf16) (w : IVec S4x128x256 32) (z : IVec S4x256 32)
    (s : FVec Ideal S4x1x256 .f32) (r : Fin 1024) (c : Fin 256) :
    part (F := Ideal) sh xb w z s (ix2 r c)
      = ∑ k : Fin 512, xb (ix2 r k)
          * (Cert.AwqSpec.toE
              (IntOp.subi (IntOp.andi (IntOp.shrsi .vector (w (ix3 (grp4 k) (row128 k) c)) sh) 15#32)
                (IntOp.andi (IntOp.shrsi .vector (z (ix2 (grp4 k) c)) sh) 15#32))
            * s (ix3 (grp4 k) (0 : Fin 1) c)) := by
  unfold part
  refine (matmul_zero_apply _ _ r c).trans (Finset.sum_congr rfl fun k _ => ?_)
  refine congrArg (xb (ix2 r k) * ·) ?_
  refine (truncf_apply (φ := .f32) (ψ := .bf16) _ bitsLt_bf16_f32 (ix2 k c)).trans ?_
  refine (cast_rows_apply _ _ k c).trans ?_
  refine (mulf_apply _ _ _).trans ?_
  have hz : broadcastTo S4x128x256
        (shapeCast S4x1x256 (andi (shrsi z (broadcast S4x256 sh)) (broadcast S4x256 15#32)) shapeCasts_S4x256_S4x1x256)
        broadcasts_S4x1x256_S4x128x256 (ix3 (grp4 k) (row128 k) c)
      = IntOp.andi (IntOp.shrsi .vector (z (ix2 (grp4 k) c)) sh) 15#32 :=
    (bcast_rows_apply _ _ _ _ _).trans (cast_addMid_apply _ _ _ _ _)
  have hs : broadcastTo S4x128x256
        (shapeCast S4x1x256 (shapeCast S4x256 s shapeCasts_S4x1x256_S4x256) shapeCasts_S4x256_S4x1x256)
        broadcasts_S4x1x256_S4x128x256 (ix3 (grp4 k) (row128 k) c)
      = s (ix3 (grp4 k) (0 : Fin 1) c) :=
    (bcast_rows_apply _ _ _ _ _).trans ((cast_addMid_apply _ _ _ _ _).trans (cast_dropMid_apply s _ _ _))
  rw [hs]
  refine congrArg (· * s (ix3 (grp4 k) (0 : Fin 1) c)) ?_
  refine (sitofp_apply _ _).trans ?_
  show Cert.AwqSpec.toE _ = Cert.AwqSpec.toE _
  refine congrArg Cert.AwqSpec.toE ?_
  show IntOp.subi (IntOp.andi (IntOp.shrsi .vector (w (ix3 (grp4 k) (row128 k) c)) sh) 15#32) _ = _
  rw [hz]

end Cert.KernelIdeal.Plane

end
-- ==== Proof.Pieces.lean ====
/-
  What one grid point leaves in the output block, entry by entry.

  The block has eight planes, one per field. At a point that continues a run (not the first of its eight points) the
  body reads plane j of the block as the point before left it, adds field j's product to it, and stores it back: plane
  by plane the block ends at "what was there" plus the product. At the first point of a run the body first fills the
  block with zeros, and every plane then reads back that zero: the block ends at zero plus the product.
  The stores of a point are eight plane-sized pieces (after a whole-block piece at a first point); the block's contents
  at an entry of plane j are the payload of the plane-j piece, the later-stored planes lying elsewhere.
-/
import proofs.«428204_j79422535238420_3_alg».proof.Proof.Gen.KernelIdeal.Frame
import proofs.«428204_j79422535238420_3_alg».proof.Proof.Plane
import proofs.«428204_j79422535238420_3_alg».proof.Proof.PlaneValue
import Idealize.ShloMosaic.Lib.Pipeline.Value
import Idealize.ShloMosaic.Lib.ValueIdx
import Idealize.ShloMosaic.Lib.Tactic
import Idealize.ShloMosaic.PureOps.Ideal.Laws

noncomputable section
open Idealize.ShloMosaic Idealize.ShloMosaic.TcCoe Idealize.SL.Sem Idealize.ShloMosaic.ValueIdx
namespace Cert.KernelIdeal.Pieces
open Cert.KernelIdeal Cert.KernelIdeal.Gen Cert.KernelIdeal.Plane Cert.AwqSpec

/-! ## Reading a list of plane-sized stores at an entry -/

section Walk
variable {Val : EltTy → Type} [∀ e, Nonempty (Val e)]

/-- Entry (0, r, c) of plane `q` is entry (q, r, c) of the block. -/
theorem plane_emb (q : ℕ) (inb : ∀ a, (![q, 0, 0] : Fin 3 → ℕ) a + (![1, 1024, 256] : Fin 3 → ℕ) a ≤ S8x1024x256.size a)
    (j : Fin 8) (hj : j.val = q) (r : Fin 1024) (cc : Fin 256) :
    (Rect.unit (s := S8x1024x256) ![q, 0, 0] ![1, 1024, 256] inb).emb (ix3 (0 : Fin 1) r cc) = ix3 j r cc := by
  funext a; apply Fin.ext
  rw [Rect.emb_apply]
  match a with
  | ⟨0, _⟩ => show q + 1 * 0 = j.val; omega
  | ⟨1, _⟩ => show 0 + 1 * r.val = r.val; omega
  | ⟨2, _⟩ => show 0 + 1 * cc.val = cc.val; omega

/-- The last store being plane j's, an entry of plane j holds its payload. -/
theorem canon_hit (q : ℕ) (inb : ∀ a, (![q, 0, 0] : Fin 3 → ℕ) a + (![1, 1024, 256] : Fin 3 → ℕ) a ≤ S8x1024x256.size a)
    (w : (Rect.unit (s := S8x1024x256) ![q, 0, 0] ![1, 1024, 256] inb).shape.Idx → Val .f32)
    (L : List (View.Piece Val S8x1024x256 .f32)) (j : Fin 8) (r : Fin 1024) (cc : Fin 256) (h : j.val = q) :
    View.canon (⟨Rect.unit ![q, 0, 0] ![1, 1024, 256] inb, w⟩ :: L) (ix3 j r cc) = w (ix3 (0 : Fin 1) r cc) := by
  rw [← plane_emb q inb j h r cc]
  exact View.canon_cons_emb _ w L _

/-- The last store being another plane's, an entry of plane j holds what the earlier stores left. -/
theorem canon_skip (q : ℕ) (inb : ∀ a, (![q, 0, 0] : Fin 3 → ℕ) a + (![1, 1024, 256] : Fin 3 → ℕ) a ≤ S8x1024x256.size a)
    (w : (Rect.unit (s := S8x1024x256) ![q, 0, 0] ![1, 1024, 256] inb).shape.Idx → Val .f32)
    (L : List (View.Piece Val S8x1024x256 .f32)) (j : Fin 8) (r : Fin 1024) (cc : Fin 256) (h : j.val ≠ q) :
    View.canon (⟨Rect.unit ![q, 0, 0] ![1, 1024, 256] inb, w⟩ :: L) (ix3 j r cc) = View.canon L (ix3 j r cc) := by
  refine View.canon_cons_of_not_mem _ L ?_
  intro hm
  have hm' : (ix3 j r cc : S8x1024x256.Idx) ∈ (Rect.unit (s := S8x1024x256) ![q, 0, 0] ![1, 1024, 256] inb).set := hm
  have h0 := (Rect.mem_set_unit.mp hm') (0 : Fin 3)
  have e1 : ((ix3 j r cc : S8x1024x256.Idx) (0 : Fin 3)).val = j.val := rfl
  have e2 : (![q, 0, 0] : Fin 3 → ℕ) 0 = q := rfl
  have e3 : (![1, 1024, 256] : Fin 3 → ℕ) 0 = 1 := rfl
  rw [e1, e2, e3] at h0
  omega

end Walk

theorem hz2 : (![0, 0] : Fin 2 → Nat) = fun _ => 0 := funext fun a => by fin_cases a <;> rfl
theorem hz3 : (![0, 0, 0] : Fin 3 → Nat) = fun _ => 0 := funext fun a => by fin_cases a <;> rfl

/-- Plane `j` of the output block. -/
abbrev planeRect (j : Fin 8) : Rect S8x1024x256 :=
  Rect.unit ![j.val, 0, 0] ![1, 1024, 256] (fun a => by
    have := j.isLt
    match a with
    | ⟨0, _⟩ => show j.val + 1 ≤ 8; omega
    | ⟨1, _⟩ => show 0 + 1024 ≤ 1024; omega
    | ⟨2, _⟩ => show 0 + 256 ≤ 256; omega)

/-- Field `j`'s row of scales, one per group, in the scales block. -/
abbrev scaleRect (j : Fin 8) : Rect S4x8x256 :=
  Rect.unit ![0, j.val, 0] ![4, 1, 256] (fun a => by
    have := j.isLt
    match a with
    | ⟨0, _⟩ => show 0 + 4 ≤ 4; omega
    | ⟨1, _⟩ => show j.val + 1 ≤ 8; omega
    | ⟨2, _⟩ => show 0 + 256 ≤ 256; omega)

theorem planeRect_idx (j : Fin 8) (r : Fin 1024) (cc : Fin 256) :
    (planeRect j).idx (ix3 (0 : Fin 1) r cc) = ix3 j r cc :=
  plane_emb j.val _ j rfl r cc

theorem scaleRect_idx (j : Fin 8) (g : Fin 4) (cc : Fin 256) :
    (scaleRect j).idx (ix3 g (0 : Fin 1) cc) = ix3 g j cc := by
  funext a; apply Fin.ext
  match a with
  | ⟨0, _⟩ => show 0 + 1 * g.val = g.val; omega
  | ⟨1, _⟩ => show j.val + 1 * 0 = j.val; omega
  | ⟨2, _⟩ => show 0 + 1 * cc.val = cc.val; omega

section Walk2
variable {Val : EltTy → Type} [∀ e, Nonempty (Val e)]

/-- A load of plane `q` after a list of stores reads, at (0, r, c), what the stores left at (q, r, c). -/
theorem readCov_at {sig : RefSig} {κ : Kind} {sp : Space} (v : View sig κ sp S8x1024x256 .f32)
    (L : List (View.Piece Val S8x1024x256 .f32)) (q : ℕ)
    (inb : ∀ a, (![q, 0, 0] : Fin 3 → ℕ) a + (![1, 1024, 256] : Fin 3 → ℕ) a ≤ S8x1024x256.size a) (hq : q < 8)
    (r : Fin 1024) (cc : Fin 256) :
    v.readCov L (Rect.unit (s := S8x1024x256) ![q, 0, 0] ![1, 1024, 256] inb).toLoadRect (ix3 (0 : Fin 1) r cc)
      = View.canon L (ix3 (⟨q, hq⟩ : Fin 8) r cc) := by
  rw [View.readCov_eq_canon']
  show View.canon L ((Rect.unit (s := S8x1024x256) ![q, 0, 0] ![1, 1024, 256] inb).emb (ix3 (0 : Fin 1) r cc)) = _
  rw [plane_emb q inb ⟨q, hq⟩ rfl r cc]

/-- The whole-block store alone leaves its payload everywhere. -/
theorem canon_whole (inb : ∀ a, (![0, 0, 0] : Fin 3 → ℕ) a + (![8, 1024, 256] : Fin 3 → ℕ) a ≤ S8x1024x256.size a)
    (w : S8x1024x256.Idx → Val .f32) (y : S8x1024x256.Idx) :
    View.canon [(⟨Rect.unit (s := S8x1024x256) ![0, 0, 0] ![8, 1024, 256] inb, w⟩ : View.Piece Val S8x1024x256 .f32)] y = w y :=
  congrFun (View.canon_unit_zero (S := S8x1024x256) hz3 inb w) y

end Walk2

/-- A load of plane `q` of given contents reads, at (0, r, c), entry (q, r, c). -/
theorem ld_plane_at {Val : EltTy → Type} (xo : S8x1024x256.Idx → Val .f32) (q : ℕ)
    (inb : ∀ a, (![q, 0, 0] : Fin 3 → ℕ) a + (![1, 1024, 256] : Fin 3 → ℕ) a ≤ S8x1024x256.size a) (hq : q < 8)
    (r : Fin 1024) (cc : Fin 256) :
    View.ld xo (Rect.unit (s := S8x1024x256) ![q, 0, 0] ![1, 1024, 256] inb) (ix3 (0 : Fin 1) r cc)
      = xo (ix3 (⟨q, hq⟩ : Fin 8) r cc) := by
  show xo ((Rect.unit (s := S8x1024x256) ![q, 0, 0] ![1, 1024, 256] inb).emb (ix3 (0 : Fin 1) r cc)) = _
  rw [plane_emb q inb ⟨q, hq⟩ rfl r cc]

/-- The fill value is zero. -/
theorem pay3_apply (y : S8x1024x256.Idx) : k0_pay3 (F := Ideal) y = 0 := by
  show Ideal.ofBits .f32 0x00000000#32 = 0
  exact Ideal.ofBits_zero_f32

/-! ## A point that continues a run -/

/-- Entry (j, r, c) of the block after such a point: what the point before left there, plus field j's product. -/
theorem outB_apply (c : Dev nD) (i : grid0.Coords) (arg2 : Memref sig .tc .vmem S1024x512 .bf16) (harg2 : arg2.IsWhole) (arg3 : Memref sig .tc .vmem S512x256 .i32) (harg3 : arg3.IsWhole) (arg4 : Memref sig .tc .vmem S4x1x256 .i32) (harg4 : arg4.IsWhole) (arg5 : Memref sig .tc .vmem S4x8x256 .f32) (harg5 : arg5.IsWhole) (arg6 : Memref sig .tc .vmem S8x1024x256 .f32) (harg6 : arg6.IsWhole) (hc0 : ¬cond0_0 i)
    (x0 : Vec Ideal S1024x512 .bf16) (x1 : Vec Ideal S512x256 .i32) (x2 : Vec Ideal S4x1x256 .i32) (x3 : Vec Ideal S4x8x256 .f32)
    (xo4 : Vec Ideal S8x1024x256 .f32) (j : Fin 8) (r : Fin 1024) (cc : Fin 256) :
    out0_B_4 (F := Ideal) c i arg2 harg2 arg3 harg3 arg4 harg4 arg5 harg5 arg6 harg6 hc0 x0 x1 x2 x3 xo4 (ix3 j r cc)
      = xo4 (ix3 j r cc)
        + part (F := Ideal) (shiftOf j) (k0_pay4 x0) (k0_pay6 x1) (k0_pay5 x2) (View.ld x3 (scaleRect j)) (ix2 r cc) := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  simp only [View.readAt_eq_ld, harg2.read_unread, harg3.read_unread, harg4.read_unread, harg5.read_unread, harg6.read_unread,
    View.ld_unit_zero (S := S1024x512) hz2, View.ld_unit_zero (S := S512x256) hz2, View.ld_unit_zero (S := S4x1x256) hz3]
  fin_cases j <;>
    simp (disch := decide) only [canon_hit, canon_skip, plane0, plane1, plane2, plane3, plane4, plane5, plane6, plane7,
      step_apply] <;>
    exact congrArg₂ (· + ·) (ld_plane_at xo4 _ _ (by decide) r cc) rfl

/-! ## The first point of a run -/

/-- Entry (j, r, c) of the block after a first point: zero plus field j's product. -/
theorem outA_apply (c : Dev nD) (i : grid0.Coords) (arg2 : Memref sig .tc .vmem S1024x512 .bf16) (harg2 : arg2.IsWhole) (arg3 : Memref sig .tc .vmem S512x256 .i32) (harg3 : arg3.IsWhole) (arg4 : Memref sig .tc .vmem S4x1x256 .i32) (harg4 : arg4.IsWhole) (arg5 : Memref sig .tc .vmem S4x8x256 .f32) (harg5 : arg5.IsWhole) (arg6 : Memref sig .tc .vmem S8x1024x256 .f32) (harg6 : arg6.IsWhole) (hc0 : cond0_0 i)
    (x0 : Vec Ideal S1024x512 .bf16) (x1 : Vec Ideal S512x256 .i32) (x2 : Vec Ideal S4x1x256 .i32) (x3 : Vec Ideal S4x8x256 .f32)
    (j : Fin 8) (r : Fin 1024) (cc : Fin 256) :
    out0_A_4 (F := Ideal) c i arg2 harg2 arg3 harg3 arg4 harg4 arg5 harg5 arg6 harg6 hc0 x0 x1 x2 x3 (ix3 j r cc)
      = 0 + part (F := Ideal) (shiftOf j) (k0_pay4 x0) (k0_pay6 x1) (k0_pay5 x2) (View.ld x3 (scaleRect j)) (ix2 r cc) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  simp only [View.readAt_eq_ld, harg2.read_unread, harg3.read_unread, harg4.read_unread, harg5.read_unread,
    View.ld_unit_zero (S := S1024x512) hz2, View.ld_unit_zero (S := S512x256) hz2, View.ld_unit_zero (S := S4x1x256) hz3]
  fin_cases j <;>
    simp (disch := decide) only [canon_hit, canon_skip, plane0, plane1, plane2, plane3, plane4, plane5, plane6, plane7,
      step_apply, readCov_at, canon_whole, pay3_apply] <;>
    rfl

end Cert.KernelIdeal.Pieces
end
-- ==== Proof.Acc.lean ====
/-
  The output block at the point that writes it back: zero plus the eight contributions of its run.

  The grid walks each column tile's eight row tiles in order. The first point of a run leaves, at every entry of the
  block, zero plus its own contribution; each later point leaves what the point before left plus its own. So after
  the last point of the run the block holds zero plus the sum of the eight contributions, in point order.
-/
import proofs.«428204_j79422535238420_3_alg».proof.Proof.Pieces

noncomputable section
open Idealize.ShloMosaic Idealize.ShloMosaic.TcCoe Idealize.SL.Sem Idealize.ShloMosaic.ValueIdx
namespace Cert.KernelIdeal.Acc
open Cert.KernelIdeal Cert.KernelIdeal.Gen Cert.KernelIdeal.Plane Cert.KernelIdeal.Pieces Cert.AwqSpec

variable (m : (ℓ : Loc nD τ sig) → Buf (Elt Ideal) ℓ)

/-- The four input blocks of point `t`, at their literal shapes. -/
abbrev blk0 (c : Dev nD) (t : Fin cfg0.N) : Vec Ideal S1024x512 .bf16 := iblk m c 0 t
abbrev blk1 (c : Dev nD) (t : Fin cfg0.N) : Vec Ideal S512x256 .i32 := iblk m c 1 t
abbrev blk2 (c : Dev nD) (t : Fin cfg0.N) : Vec Ideal S4x1x256 .i32 := iblk m c 2 t
abbrev blk3 (c : Dev nD) (t : Fin cfg0.N) : Vec Ideal S4x8x256 .f32 := iblk m c 3 t

/-- What point `t` contributes to entry (j, r, c) of the block: field j's product of its blocks. -/
def contrib (c : Dev nD) (t : Fin cfg0.N) (p : Fin 8 × Fin 1024 × Fin 256) : EReal :=
  part (F := Ideal) (shiftOf p.1) (k0_pay4 (blk0 m c t)) (k0_pay6 (blk1 m c t)) (k0_pay5 (blk2 m c t))
    (View.ld (blk3 m c t) (scaleRect p.1)) (ix2 p.2.1 p.2.2)

/-- The same for any natural number, zero past the grid (never used there). -/
def contribN (c : Dev nD) (n : ℕ) (p : Fin 8 × Fin 1024 × Fin 256) : EReal :=
  if h : n < cfg0.N then contrib m c ⟨n, h⟩ p else 0

/-- The block after point `n`, by coordinates. -/
def blockAt (c : Dev nD) (n : ℕ) (h : n < cfg0.N) : Fin 8 × Fin 1024 × Fin 256 → EReal :=
  fun p => (outsAt0 m c n h : Vec Ideal S8x1024x256 .f32) (ix3 p.1 p.2.1 p.2.2)

/-- At the first point of a run the block is zero plus the point's contribution. -/
theorem blockAt_first (c : Dev nD) (n : ℕ) (h : n < cfg0.N) (h0 : n % 8 = 0) :
    blockAt m c n h = fun p => 0 + contrib m c ⟨n, h⟩ p := by
  funext p
  unfold blockAt
  rw [outsAt0_A m c ⟨n, h⟩ h0]
  exact outA_apply c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0)
    (blk0 m c ⟨n, h⟩) (blk1 m c ⟨n, h⟩) (blk2 m c ⟨n, h⟩) (blk3 m c ⟨n, h⟩) p.1 p.2.1 p.2.2

/-- At any other point it is what the point before left plus the point's contribution. -/
theorem blockAt_next (c : Dev nD) (n : ℕ) (h : n + 1 < cfg0.N) (h0 : ¬(n + 1) % 8 = 0) :
    blockAt m c (n + 1) h = fun p => blockAt m c n (Nat.lt_of_succ_lt h) p + contrib m c ⟨n + 1, h⟩ p := by
  funext p
  unfold blockAt
  rw [outsAt0_B m c ⟨n + 1, h⟩ h0]
  exact outB_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh))
    (blk0 m c ⟨n + 1, h⟩) (blk1 m c ⟨n + 1, h⟩) (blk2 m c ⟨n + 1, h⟩) (blk3 m c ⟨n + 1, h⟩)
    (outsAt0 m c n (Nat.lt_of_succ_lt h)) p.1 p.2.1 p.2.2

/-- After the last point of its run the block is zero plus the sum of the run's eight contributions. -/
theorem blockAt_last (c : Dev nD) (t : Fin cfg0.N) (h7 : t.val % 8 = 7) (p : Fin 8 × Fin 1024 × Fin 256) :
    blockAt m c t.val t.isLt p = 0 + ∑ s ∈ Finset.range 8, contribN m c (8 * (t.val / 8) + s) p := by
  have hlt : 8 * (t.val / 8) + t.val % 8 < cfg0.N := by rw [Nat.div_add_mod]; exact t.isLt
  have hfold := Pipeline.eq_accAt_of_mod (N := cfg0.N) (blockAt m c) 8
    (fun n h => fun p => 0 + contrib m c ⟨n, h⟩ p)
    (fun n h acc => fun p => acc p + contrib m c ⟨n, h⟩ p)
    (fun n h h0 => blockAt_first m c n h h0)
    (fun n h h0 => blockAt_next m c n h h0)
    (by decide) t.val t.isLt hlt
  rw [hfold]
  have hsum := Pipeline.accAt_add_apply (N := cfg0.N)
    (fun n h => fun p => 0 + contrib m c ⟨n, h⟩ p)
    (fun n h acc => fun p => acc p + contrib m c ⟨n, h⟩ p)
    (fun _ => (0 : EReal)) (contribN m c) (8 * (t.val / 8)) 7
    (fun h i => by simp only [contribN, dif_pos h])
    (fun n h acc i _ _ => by simp only [contribN, dif_pos h])
    (t.val % 8) (by omega) hlt p
  rw [hsum, h7]

end Cert.KernelIdeal.Acc
end
-- ==== Proof.Final.lean ====
/-
  The region's output array after the run.

  The output window's block index is (0, 0, t / 8): column tile q's block is written back once, by the last point
  8·q + 7 of its run, and the six blocks tile the [8, 1024, 1536] array along its last axis. So entry (j, r, c) of the
  array ends at what the block of column tile c / 256 held at (j, r, c mod 256) after that point: zero plus the sum
  of the run's eight contributions.
-/
import proofs.«428204_j79422535238420_3_alg».proof.Proof.Acc

noncomputable section
open Idealize.ShloMosaic Idealize.ShloMosaic.TcCoe Idealize.SL.Sem Idealize.ShloMosaic.ValueIdx
open Idealize.ShloMosaic.Pipeline (Dat)
namespace Cert.KernelIdeal.Final
open Cert.KernelIdeal Cert.KernelIdeal.Gen Cert.KernelIdeal.Acc

variable (m : (ℓ : Loc nD τ sig) → Buf (Elt Ideal) ℓ)

/-- The array the region leaves: entry (j, r, c) is zero plus the eight contributions of column tile c / 256 at
    (j, r, c mod 256). -/
def Gout (c : Dev nD) : Vec Ideal S8x1024x1536 .f32 := fun i =>
  0 + ∑ s ∈ Finset.range 8, contribN m c (8 * ((i 2).val / 256) + s)
        ((⟨(i 0).val, (i 0).isLt⟩ : Fin 8), (⟨(i 1).val, (i 1).isLt⟩ : Fin 1024),
          (⟨(i 2).val % 256, Nat.mod_lt _ (by decide)⟩ : Fin 256))

theorem Gout_apply (c : Dev nD) (j : Fin 8) (r : Fin 1024) (cp : Fin 1536) :
    Gout m c (ix3 j r cp)
      = 0 + ∑ s ∈ Finset.range 8, contribN m c (8 * (cp.val / 256) + s)
          (j, r, (⟨cp.val % 256, Nat.mod_lt _ (by decide)⟩ : Fin 256)) := rfl

/-! ## The output window's index map, decided over the grid -/

/-- The grid has 48 points. -/
theorem tlt (t : Fin cfg0.N) : t.val < 48 := lt_of_lt_of_eq t.isLt N_0

/-- The output window's block index at point t: (0, 0, t / 8). -/
theorem idx4 : ∀ t : Fin cfg0.N, win0_4.index t (0 : Fin 3) = 0 ∧ win0_4.index t (1 : Fin 3) = 0
    ∧ win0_4.index t (2 : Fin 3) = t.val / 8 :=
  (by decide +kernel : ∀ t : Fin grid0.N, _)

/-! ## What a point writes back -/

/-- A point that writes back is the last of its run, t mod 8 = 7: the block it writes is block t of `Gout`. Entry
    (j, r, c) of the block is entry (j, r, 256·(t / 8) + c) of the array, whose column tile is t / 8 and whose column
    within the tile is c; the block there holds zero plus the run's eight contributions. -/
theorem flushed_eq (c : Dev nD) (t : Fin cfg0.N) (hf : (cfg0.win 4).flush t = true) :
    (dats m 0 c).flushed 4 t = ((cfg0.win 4).blk t).view.read (Elt Ideal) (Gout m c) := by
  have h7 : t.val % 8 = 7 := (flush0_4 t).mp hf
  obtain ⟨e0, e1, e2⟩ := idx4 t
  have ht := tlt t
  show (cfg0.win 4).cut (grid0.coords t) ((dats m 0 c).after 4 t) = _
  rw [after0_4]
  funext y
  show (outsAt0 m c t.val t.isLt : Vec Ideal S8x1024x256 .f32) y = Gout m c (((cfg0.win 4).blk t).view.emb y)
  obtain ⟨j, r, cc, rfl⟩ : ∃ (j : Fin 8) (r : Fin 1024) (cc : Fin 256), y = ix3 j r cc := ⟨y 0, y 1, y 2, eq_ix3 y⟩
  have hcc := cc.isLt
  have hemb : ((cfg0.win 4).blk t).view.emb (ix3 j r cc)
      = ix3 j r (⟨t.val / 8 * 256 + cc.val, by omega⟩ : Fin 1536) := by
    funext a; apply Fin.ext
    match a with
    | ⟨0, _⟩ => show win0_4.index t (0 : Fin 3) * 8 + 1 * j.val = j.val; omega
    | ⟨1, _⟩ => show win0_4.index t (1 : Fin 3) * 1024 + 1 * r.val = r.val; omega
    | ⟨2, _⟩ => show win0_4.index t (2 : Fin 3) * 256 + 1 * cc.val = t.val / 8 * 256 + cc.val; omega
  rw [hemb, Gout_apply]
  refine (blockAt_last m c t h7 (j, r, cc)).trans ?_
  have hq : (t.val / 8 * 256 + cc.val) / 256 = t.val / 8 := by omega
  have hr : (⟨(t.val / 8 * 256 + cc.val) % 256, Nat.mod_lt _ (by decide)⟩ : Fin 256) = cc :=
    Fin.ext (by show (t.val / 8 * 256 + cc.val) % 256 = cc.val; omega)
  show 0 + ∑ s ∈ Finset.range 8, contribN m c (8 * (t.val / 8) + s) (j, r, cc)
    = 0 + ∑ s ∈ Finset.range 8, contribN m c (8 * ((t.val / 8 * 256 + cc.val) / 256) + s)
        (j, r, (⟨(t.val / 8 * 256 + cc.val) % 256, Nat.mod_lt _ (by decide)⟩ : Fin 256))
  rw [hq, hr]

/-! ## The blocks written back tile the array -/

/-- Entry (j, r, c) of the array is in the block of the last point of column tile c / 256's run. -/
theorem cover (i : S8x1024x1536.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 1536 := (i 2).isLt
  obtain ⟨t, ht⟩ : ∃ t : Fin cfg0.N, t.val = 8 * ((i 2).val / 256) + 7 :=
    ⟨⟨8 * ((i 2).val / 256) + 7, lt_of_lt_of_eq (by omega : 8 * ((i 2).val / 256) + 7 < 48) N_0.symm⟩, rfl⟩
  obtain ⟨e0, e1, e2⟩ := idx4 t
  refine ⟨t, (flush0_4 t).mpr (by omega), ?_⟩
  show i ∈ ((View.whole main_v7).slice (win0_4.rect t)).set
  rw [View.set_slice_whole, Rect.mem_set_unit]
  intro a
  match a with
  | ⟨0, _⟩ =>
    show win0_4.index t (0 : Fin 3) * 8 ≤ (i 0).val ∧ (i 0).val < win0_4.index t (0 : Fin 3) * 8 + 8
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 256 ≤ (i 2).val ∧ (i 2).val < win0_4.index t (2 : Fin 3) * 256 + 256
    omega

/-! ## The array after the run -/

/-- After the run the region's output array holds `Gout`. -/
theorem final_out (c : Dev nD) : ((dats m 0 c).arrAt 4 cfg0.N : Vec Ideal S8x1024x1536 .f32) = Gout m c :=
  (dats m 0 c).arrAt_eq_of_cover 4 (Gout m c) (flushed_eq m c) cover

end Cert.KernelIdeal.Final
end
-- ==== Proof.Layout.lean ====
/-
  The host operations around the region, as functions of the argument arrays, read at an index.

  Before the region the program pads the packed weights and the packed zero points with 160 zero columns
  (1376 → 1536 packed columns), gives the zero points a unit middle axis, and re-lays the scales from [32, 11008]
  to [32, 8, 1536]: column n = 8·c + j of group g goes to (g, j, c), the columns past 1376 padded with zero.
  After the region it re-lays the output from [8, 1024, 1536] to [1024, 11008]: entry (r, n) is entry
  (n mod 8, r, n / 8) of the region's array, the columns n ≥ 11008 (those of the padded packed columns) cut off.
  Inside the unpadded range each of these is a re-indexing of its operand.
-/
import proofs.«428204_j79422535238420_3_alg».proof.Proof.Gen.KernelIdeal
import Idealize.ShloMosaic.Lib.Pipeline.Value
import Idealize.ShloMosaic.Lib.ValueIdx
import Idealize.ShloMosaic.Lib.KernelVsHost

noncomputable section

namespace Cert.KernelIdeal.Layout

open Idealize.ShloMosaic Idealize.ShloMosaic.ValueIdx Cert.KernelIdeal Cert.KernelIdeal.Gen

variable {F : FTy → Type} [FloatOps F]

/-- The packed weights with 160 zero columns appended. -/
def qwPad (qw : IVec S4096x1376 32) : IVec S4096x1536 32 :=
  pad S4096x1536 ![0, 0] ![0, 160] ![0, 0] qw (constantI S_ 32 0#32) pads_S4096x1376_S4096x1536_000_01600 h_S_

theorem qwPad_apply (qw : IVec S4096x1376 32) (k : Fin 4096) (c : Fin 1536) (hc : c.val < 1376) :
    qwPad qw (ix2 k c) = qw (ix2 k ⟨c.val, hc⟩) := by
  -- (k, c) lies inside the operand on both axes: low padding 0, no interior padding, c < 1376.
  unfold qwPad
  exact pad_apply_of_inside _ _ _ qw _ _ _ (ix2 k c) (ix2 k (⟨c.val, hc⟩ : Fin 1376)) (fun a => match a with
    | ⟨0, _⟩ => by show k.val = 0 + k.val * (0 + 1); omega
    | ⟨1, _⟩ => by show c.val = 0 + c.val * (0 + 1); omega)

/-- The packed zero points with 160 zero columns appended and a unit middle axis. -/
def qzPad (qz : IVec S32x1376 32) : IVec S32x1x1536 32 :=
  shapeCast S32x1x1536
    (pad S32x1536 ![0, 0] ![0, 160] ![0, 0] qz (constantI S_ 32 0#32) pads_S32x1376_S32x1536_000_01600 h_S_)
    shapeCasts_S32x1536_S32x1x1536

theorem qzPad_apply (qz : IVec S32x1376 32) (g : Fin 32) (c : Fin 1536) (hc : c.val < 1376) :
    qzPad qz (ix3 g (0 : Fin 1) c) = qz (ix2 g ⟨c.val, hc⟩) := by
  -- (g, 0, c) and (g, c) have the same row-major position g·1536 + c; then (g, c) lies inside the padded operand.
  unfold qzPad
  refine (shapeCast_apply _ _ (ix3 g (0 : Fin 1) c) (ix2 g c) ?_).trans ?_
  · rw [Shape.rowMajor_val_two, Shape.rowMajor_val_three]
    show g.val * 1536 + c.val = (g.val * 1 + 0) * 1536 + c.val
    omega
  · exact pad_apply_of_inside _ _ _ qz _ _ _ (ix2 g c) (ix2 g (⟨c.val, hc⟩ : Fin 1376)) (fun a => match a with
      | ⟨0, _⟩ => by show g.val = 0 + g.val * (0 + 1); omega
      | ⟨1, _⟩ => by show c.val = 0 + c.val * (0 + 1); omega)

/-- The scales re-laid field-major: (g, j, c) holds column 8·c + j of group g; zero past packed column 1376. -/
def scPerm (sc : FVec F S32x11008 .f32) : FVec F S32x8x1536 .f32 :=
  pad S32x8x1536 ![0, 0, 0] ![0, 0, 160] ![0, 0, 0]
    (transpose S32x8x1376 [0, 2, 1] (shapeCast S32x1376x8 sc shapeCasts_S32x11008_S32x1376x8)
      transposes_S32x1376x8_S32x8x1376_0_2_1)
    (sitofp .f32 (constantI S_ 32 0#32)) pads_S32x8x1376_S32x8x1536_000_000_01600 h_S_

theorem scPerm_apply (sc : FVec F S32x11008 .f32) (g : Fin 32) (j : Fin 8) (c : Fin 1536) (hc : c.val < 1376) :
    scPerm sc (ix3 g j c) = sc (ix2 g (⟨c.val * 8 + j.val, by have := j.isLt; omega⟩ : Fin 11008)) := by
  -- (g, j, c) lies inside the padded operand; the transpose at [0, 2, 1] reads (g, c, j) of the [32, 1376, 8] view,
  -- whose row-major position (g·1376 + c)·8 + j is that of (g, 8·c + j) in [32, 11008].
  unfold scPerm
  refine (pad_apply_of_inside _ _ _ _ _ _ _ (ix3 g j c) (ix3 g j (⟨c.val, hc⟩ : Fin 1376)) (fun a => match a with
    | ⟨0, _⟩ => by show g.val = 0 + g.val * (0 + 1); omega
    | ⟨1, _⟩ => by show j.val = 0 + j.val * (0 + 1); omega
    | ⟨2, _⟩ => by show c.val = 0 + c.val * (0 + 1); omega)).trans ?_
  refine (transpose_apply _ _ _ (ix3 g j (⟨c.val, hc⟩ : Fin 1376)) (ix3 g (⟨c.val, hc⟩ : Fin 1376) j)
    (fun b => match b with | ⟨0, _⟩ => rfl | ⟨1, _⟩ => rfl | ⟨2, _⟩ => rfl)).trans ?_
  refine shapeCast_apply _ _ _ _ ?_
  rw [Shape.rowMajor_val_two, Shape.rowMajor_val_three]
  show g.val * 11008 + (c.val * 8 + j.val) = (g.val * 1376 + c.val) * 8 + j.val
  omega

/-- The region's array re-laid to the result: (r, n) holds (n mod 8, r, n / 8). -/
def unperm (out : FVec F S8x1024x1536 .f32) : FVec F S1024x11008 .f32 :=
  extractStridedSlice S1024x11008 ![0, 0]
    (shapeCast S1024x12288
      (transpose S1024x1536x8 [1, 2, 0] out transposes_S8x1024x1536_S1024x1536x8_1_2_0)
      shapeCasts_S1024x1536x8_S1024x12288)
    slices_S1024x12288_S1024x11008_0_0

theorem unperm_apply (out : FVec F S8x1024x1536 .f32) (r : Fin 1024) (n : Fin 11008) :
    unperm out (ix2 r n)
      = out (ix3 (⟨n.val % 8, Nat.mod_lt _ (by decide)⟩ : Fin 8) r (⟨n.val / 8, by have := n.isLt; omega⟩ : Fin 1536)) := by
  -- The slice has offsets 0; (r, n) of [1024, 12288] has the row-major position of (r, n / 8, n mod 8) in
  -- [1024, 1536, 8], since n = 8·(n / 8) + n mod 8; the transpose at [1, 2, 0] reads (n mod 8, r, n / 8).
  unfold unperm
  refine (extractStridedSlice_apply _ _ _ (ix2 r n) (ix2 r (⟨n.val, by have := n.isLt; omega⟩ : Fin 12288)) (fun a => match a with
    | ⟨0, _⟩ => by show r.val = 0 + r.val; omega
    | ⟨1, _⟩ => by show n.val = 0 + n.val; omega)).trans ?_
  refine (shapeCast_apply _ _ _
    (ix3 r (⟨n.val / 8, by have := n.isLt; omega⟩ : Fin 1536) (⟨n.val % 8, Nat.mod_lt _ (by decide)⟩ : Fin 8)) ?_).trans ?_
  · rw [Shape.rowMajor_val_three, Shape.rowMajor_val_two]
    show (r.val * 1536 + n.val / 8) * 8 + n.val % 8 = r.val * 12288 + n.val
    omega
  · exact transpose_apply _ _ _ _ _ (fun b => match b with | ⟨0, _⟩ => rfl | ⟨1, _⟩ => rfl | ⟨2, _⟩ => rfl)

end Cert.KernelIdeal.Layout

end
-- ==== Proof.HostSide.lean ====
/-
  The arrays the region finds and the result the program returns, as functions of the arguments.

  The region's four input arrays are written by the host operations before it: x with its format changed, the packed
  weights and zero points padded, the scales re-laid. The program's result is the host operations after the region
  applied to the region's output array.
-/
import proofs.«428204_j79422535238420_3_alg».proof.Proof.Gen.KernelIdeal.Frame
import proofs.«428204_j79422535238420_3_alg».proof.Proof.Layout
import Idealize.ShloMosaic.Lib.StableHlo.Run
import Idealize.ShloMosaic.Lib.Pipeline.Value

noncomputable section

namespace Cert.KernelIdeal.HostSide

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- Window 0's array: x in the narrower format. -/
theorem V_v6 (c : Dev nD) :
    (V m c main_v6 : FVec F S1024x4096 .bf16)
      = truncf .bf16 (m ((c : Thread nD τ).loc main_arg0) : FVec F S1024x4096 .f32) bitsLt_bf16_f32 := by
  -- Of the operations before the region only the last writes main_v6: the format change of main_arg0, which none of them writes.
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results

/-- Window 1's array: the padded packed weights. -/
theorem V_v0 (c : Dev nD) :
    (V m c main_v0 : IVec S4096x1536 32) = Layout.qwPad (m ((c : Thread nD τ).loc main_arg1)) := by
  -- main_v0 is written once: the pad of main_arg1 (as launched) by the zero word passed through main_call0_v0.
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results
  rfl

/-- Window 2's array: the padded packed zero points. -/
theorem V_v2 (c : Dev nD) :
    (V m c main_v2 : IVec S32x1x1536 32) = Layout.qzPad (m ((c : Thread nD τ).loc main_arg3)) := by
  -- main_v2 is the reshape of main_v1, which is the pad of main_arg3 (as launched) by the zero word.
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results
  rfl

/-- Window 3's array: the re-laid scales. -/
theorem V_v5 (c : Dev nD) :
    (V m c main_v5 : FVec F S32x8x1536 .f32) = Layout.scPerm (m ((c : Thread nD τ).loc main_arg2) : FVec F S32x11008 .f32) := by
  -- main_v5 is the pad, by the zero word converted to f32, of main_v4, the transpose of main_v3, the reshape of main_arg2 (as launched).
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results
  rfl

/-- The program's result: the region's output array re-laid. -/
theorem tail_v10 (c : Dev nD) :
    (Pipeline.afterTail₀ cfgs (dats m) 0 (V0 m) [hostOps1] c main_v10 : FVec F S1024x11008 .f32)
      = Layout.unperm ((dats m 0 c).arrAt 4 cfg0.N : FVec F S8x1024x1536 .f32) := by
  -- main_v10 is the slice of main_v9, the reshape of main_v8, the transpose of main_v7; main_v7 is window 4's array,
  -- which the region leaves at its contents after the last grid step.
  unfold Pipeline.afterTail₀
  show StableHlo.after hostOps1 _ (Proc.devRef .tc main_v10) = _
  open StableHlo in after_results
  exact congrArg Layout.unperm
    (Pipeline.withArrays_arr spec0 launch0.win.arr_inj c (V0 m c) (fun w => (dats m 0 c).arrAt w (cfgs 0).N) 4)

end Cert.KernelIdeal.HostSide

end
-- ==== Proof.Blocks.lean ====
/-
  The input blocks of a grid point, entry by entry.

  Point t of the 6 × 8 grid has column tile t / 8 and row tile t mod 8. Its x block is columns [512·(t mod 8), +512)
  of x; its weight block is rows [512·(t mod 8), +512) and packed columns [256·(t / 8), +256) of the padded weights;
  its zero-point and scale blocks are groups [4·(t mod 8), +4) and the same packed columns.
-/
import proofs.«428204_j79422535238420_3_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx Cert.KernelIdeal Cert.KernelIdeal.Gen

variable {F : FTy → Type} [FloatOps F]
variable (m : (ℓ : Loc nD τ sig) → Buf (Elt F) ℓ)

/-- The grid has 48 points. -/
theorem tlt (t : Fin cfg0.N) : t.val < 48 := lt_of_lt_of_eq t.isLt N_0

/-- Row (or column) `k` of row tile `t mod 8`, blocks of 512. -/
def rowOf (t : Fin cfg0.N) (k : Fin 512) : Fin 4096 := ⟨t.val % 8 * 512 + k.val, by have := k.isLt; omega⟩
/-- Packed column `c` of column tile `t / 8`, blocks of 256. -/
def colOf (t : Fin cfg0.N) (cc : Fin 256) : Fin 1536 := ⟨t.val / 8 * 256 + cc.val, by have := tlt t; have := cc.isLt; omega⟩
/-- Group `g` of row tile `t mod 8`, blocks of 4. -/
def grpOf (t : Fin cfg0.N) (g : Fin 4) : Fin 32 := ⟨t.val % 8 * 4 + g.val, by have := g.isLt; omega⟩

/-! ## The index maps, decided over the grid -/

/-- Window 0's block index at point t: (0, t mod 8). -/
theorem idx0 : ∀ t : Fin cfg0.N, win0_0.index t (0 : Fin 2) = 0 ∧ win0_0.index t (1 : Fin 2) = t.val % 8 :=
  (by decide +kernel : ∀ t : Fin grid0.N, _)

/-- Window 1's block index at point t: (t mod 8, t / 8). -/
theorem idx1 : ∀ t : Fin cfg0.N, win0_1.index t (0 : Fin 2) = t.val % 8 ∧ win0_1.index t (1 : Fin 2) = t.val / 8 :=
  (by decide +kernel : ∀ t : Fin grid0.N, _)

/-- Window 2's block index at point t: (t mod 8, 0, t / 8). -/
theorem idx2 : ∀ t : Fin cfg0.N, win0_2.index t (0 : Fin 3) = t.val % 8 ∧ win0_2.index t (1 : Fin 3) = 0
    ∧ win0_2.index t (2 : Fin 3) = t.val / 8 :=
  (by decide +kernel : ∀ t : Fin grid0.N, _)

/-- Window 3's block index at point t: (t mod 8, 0, t / 8). -/
theorem idx3 : ∀ t : Fin cfg0.N, win0_3.index t (0 : Fin 3) = t.val % 8 ∧ win0_3.index t (1 : Fin 3) = 0
    ∧ win0_3.index t (2 : Fin 3) = t.val / 8 :=
  (by decide +kernel : ∀ t : Fin grid0.N, _)

/-! ## The blocks, entry by entry: an entry's coordinate in the array is block index × block size + its coordinate in the block -/

theorem iblk0_apply (c : Dev nD) (t : Fin cfg0.N) (r : Fin 1024) (k : Fin 512) :
    (iblk m c 0 t : Vec F S1024x512 .bf16) (ix2 r k) = (V m c main_v6 : Vec F S1024x4096 .bf16) (ix2 r (rowOf t k)) := by
  obtain ⟨e0, e1⟩ := idx0 t
  show V m c main_v6 (((cfg0.win 0).blk t).view.emb (ix2 r k)) = V m c main_v6 (ix2 r (rowOf t k))
  refine congrArg _ (funext fun a => Fin.ext ?_)
  match a with
  | ⟨0, _⟩ => show win0_0.index t (0 : Fin 2) * 1024 + 1 * r.val = r.val; omega
  | ⟨1, _⟩ => show win0_0.index t (1 : Fin 2) * 512 + 1 * k.val = t.val % 8 * 512 + k.val; omega

theorem iblk1_apply (c : Dev nD) (t : Fin cfg0.N) (k : Fin 512) (cc : Fin 256) :
    (iblk m c 1 t : Vec F S512x256 .i32) (ix2 k cc) = (V m c main_v0 : Vec F S4096x1536 .i32) (ix2 (rowOf t k) (colOf t cc)) := by
  obtain ⟨e0, e1⟩ := idx1 t
  show V m c main_v0 (((cfg0.win 1).blk t).view.emb (ix2 k cc)) = V m c main_v0 (ix2 (rowOf t k) (colOf t cc))
  refine congrArg _ (funext fun a => Fin.ext ?_)
  match a with
  | ⟨0, _⟩ => show win0_1.index t (0 : Fin 2) * 512 + 1 * k.val = t.val % 8 * 512 + k.val; omega
  | ⟨1, _⟩ => show win0_1.index t (1 : Fin 2) * 256 + 1 * cc.val = t.val / 8 * 256 + cc.val; omega

theorem iblk2_apply (c : Dev nD) (t : Fin cfg0.N) (g : Fin 4) (cc : Fin 256) :
    (iblk m c 2 t : Vec F S4x1x256 .i32) (ix3 g (0 : Fin 1) cc)
      = (V m c main_v2 : Vec F S32x1x1536 .i32) (ix3 (grpOf t g) (0 : Fin 1) (colOf t cc)) := by
  obtain ⟨e0, e1, e2⟩ := idx2 t
  show V m c main_v2 (((cfg0.win 2).blk t).view.emb (ix3 g (0 : Fin 1) cc)) = V m c main_v2 (ix3 (grpOf t g) (0 : Fin 1) (colOf t cc))
  refine congrArg _ (funext fun a => Fin.ext ?_)
  match a with
  | ⟨0, _⟩ => show win0_2.index t (0 : Fin 3) * 4 + 1 * g.val = t.val % 8 * 4 + g.val; omega
  | ⟨1, _⟩ => show win0_2.index t (1 : Fin 3) * 1 + 1 * 0 = 0; omega
  | ⟨2, _⟩ => show win0_2.index t (2 : Fin 3) * 256 + 1 * cc.val = t.val / 8 * 256 + cc.val; omega

theorem iblk3_apply (c : Dev nD) (t : Fin cfg0.N) (g : Fin 4) (j : Fin 8) (cc : Fin 256) :
    (iblk m c 3 t : Vec F S4x8x256 .f32) (ix3 g j cc)
      = (V m c main_v5 : Vec F S32x8x1536 .f32) (ix3 (grpOf t g) j (colOf t cc)) := by
  obtain ⟨e0, e1, e2⟩ := idx3 t
  show V m c main_v5 (((cfg0.win 3).blk t).view.emb (ix3 g j cc)) = V m c main_v5 (ix3 (grpOf t g) j (colOf t cc))
  refine congrArg _ (funext fun a => Fin.ext ?_)
  match a with
  | ⟨0, _⟩ => show win0_3.index t (0 : Fin 3) * 4 + 1 * g.val = t.val % 8 * 4 + g.val; omega
  | ⟨1, _⟩ => show win0_3.index t (1 : Fin 3) * 8 + 1 * j.val = j.val; omega
  | ⟨2, _⟩ => show win0_3.index t (2 : Fin 3) * 256 + 1 * cc.val = t.val / 8 * 256 + cc.val; omega

end Cert.KernelIdeal.Blocks

end
-- ==== Proof.Bridge.lean ====
/-
  From the kernel's order of summation to the specification's.

  The kernel sums over the 4096 rows in eight runs of 512: the point at offset s of a run contributes the rows
  512·s … 512·s + 511 (`addend`), and the contributions are added one after the other to zero. Inside a contribution
  the zero point is subtracted from the weight as 32-bit integers before the difference is read as a real.
  Both fields lie in [0, 15], so the integer difference does not wrap and its reading is the difference of the
  readings; the shift amounts are below 32, so the shift is the plain arithmetic one; and a sum over 4096 = 8 · 512
  rows is the sum over the runs of the sums inside them (addition on the extended reals is commutative and
  associative, so no finiteness is needed).
-/
import proofs.«428204_j79422535238420_3_alg».proof.Proof.Spec
import Mathlib.Logic.Equiv.Fin.Basic
import Mathlib.Data.Fintype.BigOperators
import Mathlib.Data.EReal.Operations

noncomputable section

namespace Cert.AwqBridge

open Idealize.ShloMosaic Idealize.ShloMosaic.ValueIdx Cert.AwqSpec

/-- Row `k` of the run offset `n mod 8`. -/
def rowN (n : ℕ) (k : Fin 512) : Fin 4096 :=
  ⟨n % 8 * 512 + k.val, by have := k.isLt; have := Nat.mod_lt n (by decide : 0 < 8); omega⟩
/-- Its group of 128 rows. -/
def grpN (n : ℕ) (k : Fin 512) : Fin 32 :=
  ⟨n % 8 * 4 + k.val / 128, by have := k.isLt; have := Nat.mod_lt n (by decide : 0 < 8); omega⟩

/-- What point `n` adds to entry (j, r, c) of the field-major output: its 512 rows' products. -/
def addend (x : FVec Ideal ⟨2, ![1024, 4096]⟩ .f32) (qw : IVec ⟨2, ![4096, 1376]⟩ 32)
    (sc : FVec Ideal ⟨2, ![32, 11008]⟩ .f32) (qz : IVec ⟨2, ![32, 1376]⟩ 32)
    (n : ℕ) (j : Fin 8) (r : Fin 1024) (c : Fin 1376) : EReal :=
  ∑ k : Fin 512, x (ix2 r (rowN n k))
    * (toE (IntOp.subi (IntOp.andi (IntOp.shrsi .vector (qw (ix2 (rowN n k) c)) (shiftOf j)) 15#32)
              (IntOp.andi (IntOp.shrsi .vector (qz (ix2 (grpN n k) c)) (shiftOf j)) 15#32))
        * sc (ix2 (grpN n k) (⟨c.val * 8 + j.val, by have := c.isLt; have := j.isLt; omega⟩ : Fin 11008)))

/-! The shift and the mask. -/

/-- Every field's bit offset is below the word's width, so the shift is the plain arithmetic one. -/
theorem shrsi_shiftOf (w : BitVec 32) (j : Fin 8) :
    IntOp.shrsi .vector w (shiftOf j) = w.sshiftRight' (shiftOf j) := by
  unfold IntOp.shrsi
  exact if_pos (by fin_cases j <;> decide)

/-- The shifted and masked word is the field. -/
theorem field_eq (w : BitVec 32) (j : Fin 8) :
    IntOp.andi (IntOp.shrsi .vector w (shiftOf j)) 15#32 = nib w j := by
  rw [shrsi_shiftOf]; rfl

/-! The difference of two fields does not wrap. -/

/-- A field is at most 15. -/
theorem nib_toNat_le (w : BitVec 32) (j : Fin 8) : (nib w j).toNat ≤ 15 := by
  unfold nib
  rw [BitVec.toNat_and]
  exact Nat.and_le_right

/-- A field read signed is the field read unsigned. -/
theorem nib_toInt (w : BitVec 32) (j : Fin 8) : (nib w j).toInt = ((nib w j).toNat : ℤ) :=
  BitVec.toInt_eq_toNat_of_lt (by have := nib_toNat_le w j; omega)

/-- The integer difference of two fields, read as a real, is the difference of their readings. -/
theorem toE_subi_nib (a b : BitVec 32) (j : Fin 8) :
    toE (IntOp.subi (nib a j) (nib b j)) = toE (nib a j) - toE (nib b j) := by
  have ha := nib_toNat_le a j
  have hb := nib_toNat_le b j
  have hsub : (IntOp.subi (nib a j) (nib b j)).toInt = (nib a j).toInt - (nib b j).toInt := by
    show ((nib a j) - (nib b j)).toInt = _
    rw [BitVec.toInt_sub, nib_toInt, nib_toInt]
    exact Int.bmod_eq_of_le (by omega) (by omega)
  unfold toE
  rw [hsub, Int.cast_sub, EReal.coe_sub]

/-! The eight runs of 512 rows are the 4096 rows. -/

/-- A row's group is the group of its position in the run. -/
theorem grpN_eq (n : ℕ) (k : Fin 512) : grpN n k = grpOf (rowN n k) := by
  apply Fin.ext
  show n % 8 * 4 + k.val / 128 = (n % 8 * 512 + k.val) / 128
  omega

/-- An output column is eight times its packed column plus its field. -/
theorem col_eq (n : Fin 11008) :
    (⟨(colOf n).val * 8 + (slotOf n).val, by have := (colOf n).isLt; have := (slotOf n).isLt; omega⟩ : Fin 11008) = n := by
  apply Fin.ext
  show n.val / 8 * 8 + n.val % 8 = n.val
  omega

/-- The sum over the eight offsets of a run of the sums over their 512 rows is the sum over all rows. -/
theorem sum_runs {M : Type*} [AddCommMonoid M] (q : ℕ) (f : Fin 4096 → M) :
    ∑ s ∈ Finset.range 8, ∑ k : Fin 512, f (rowN (8 * q + s) k) = ∑ K : Fin 4096, f K := by
  rw [← Fin.sum_univ_eq_sum_range (fun s => ∑ k : Fin 512, f (rowN (8 * q + s) k)) 8,
    ← Fintype.sum_prod_type' (fun (s : Fin 8) (k : Fin 512) => f (rowN (8 * q + s.val) k))]
  refine Fintype.sum_equiv (finProdFinEquiv (m := 8) (n := 512) : Fin 8 × Fin 512 ≃ Fin 4096) _ _ fun p => ?_
  refine congrArg f (Fin.ext ?_)
  show (8 * q + p.1.val) % 8 * 512 + p.2.val = p.2.val + 512 * p.1.val
  have := p.1.isLt
  omega

/-- A point's contribution is its 512 rows' share of the specification's sum. -/
theorem addend_eq (x : FVec Ideal ⟨2, ![1024, 4096]⟩ .f32) (qw : IVec ⟨2, ![4096, 1376]⟩ 32)
    (sc : FVec Ideal ⟨2, ![32, 11008]⟩ .f32) (qz : IVec ⟨2, ![32, 1376]⟩ 32) (m : ℕ) (r : Fin 1024) (n : Fin 11008) :
    addend x qw sc qz m (slotOf n) r (colOf n) = ∑ k : Fin 512, x (ix2 r (rowN m k)) * W qw sc qz (rowN m k) n := by
  unfold addend W
  refine Finset.sum_congr rfl fun k _ => ?_
  rw [field_eq, field_eq, toE_subi_nib, col_eq, grpN_eq]

/-- Zero plus the eight contributions of run `q`, at the field and packed column of output column `n`, is the
    specification's entry. -/
theorem bridge (x : FVec Ideal ⟨2, ![1024, 4096]⟩ .f32) (qw : IVec ⟨2, ![4096, 1376]⟩ 32)
    (sc : FVec Ideal ⟨2, ![32, 11008]⟩ .f32) (qz : IVec ⟨2, ![32, 1376]⟩ 32) (q : ℕ) (r : Fin 1024) (n : Fin 11008) :
    (0 : EReal) + ∑ s ∈ Finset.range 8, addend x qw sc qz (8 * q + s) (slotOf n) r (colOf n) = Gat x qw sc qz r n := by
  rw [zero_add, Finset.sum_congr rfl fun s _ => addend_eq x qw sc qz (8 * q + s) r n]
  exact sum_runs q fun K => x (ix2 r K) * W qw sc qz K n

end Cert.AwqBridge

end
-- ==== Proof.Addend.lean ====
/-
  A point's contribution, in terms of the four arguments.

  Point 8·q + s of the grid (column tile q, row tile s) reads rows 512·s … 512·s + 511 of x and of the packed weights,
  groups 4·s … 4·s + 3 of the zero points and scales, and packed columns 256·q … 256·q + 255. For a packed column
  below 1376 (the unpadded ones) its blocks are entries of the arguments themselves — the padding is never read, the
  narrower format of x is the same real number — so its contribution to entry (j, r, c) of the block is the sum over
  its 512 rows of x times the dequantized weight of field j.
-/
import proofs.«428204_j79422535238420_3_alg».proof.Proof.Acc
import proofs.«428204_j79422535238420_3_alg».proof.Proof.Blocks
import proofs.«428204_j79422535238420_3_alg».proof.Proof.HostSide
import proofs.«428204_j79422535238420_3_alg».proof.Proof.Bridge

noncomputable section
open Idealize.ShloMosaic Idealize.ShloMosaic.TcCoe Idealize.SL.Sem Idealize.ShloMosaic.ValueIdx
namespace Cert.KernelIdeal.Addend
open Cert.KernelIdeal Cert.KernelIdeal.Gen Cert.KernelIdeal.Plane Cert.KernelIdeal.Pieces Cert.KernelIdeal.Acc Cert.AwqSpec

variable (m : (ℓ : Loc nD τ sig) → Buf (Elt Ideal) ℓ)

/-- Point 8·q + s lies on the grid. -/
theorem point_lt (q s : ℕ) (hq : q < 6) (hs : s < 8) : 8 * q + s < cfg0.N :=
  lt_of_lt_of_eq (show 8 * q + s < 48 by omega) N_0.symm

/-- The point's x block at (r, k) is x at row r and column 512·s + k: the narrower format is the same real number. -/
theorem x_entry (c : Dev nD) (q s : ℕ) (h48 : 8 * q + s < cfg0.N) (r : Fin 1024) (k : Fin 512) :
    k0_pay4 (F := Ideal) (blk0 m c ⟨8 * q + s, h48⟩) (ix2 r k)
      = (m ((c : Thread nD τ).loc main_arg0) : FVec Ideal ⟨2, ![1024, 4096]⟩ .f32) (ix2 r (Cert.AwqBridge.rowN (8 * q + s) k)) := by
  rw [pay4_eq]
  refine (Blocks.iblk0_apply m c ⟨8 * q + s, h48⟩ r k).trans ?_
  refine (congrFun (HostSide.V_v6 (F := Ideal) m c) _).trans ?_
  refine (truncf_apply (φ := .f32) (ψ := .bf16) _ bitsLt_bf16_f32 _).trans ?_
  rfl

/-- The point's weight block at group k / 128, position k mod 128 and column cc is the packed weight at row 512·s + k
    and packed column 256·q + cc, when that column is not padding. -/
theorem w_entry (c : Dev nD) (q s : ℕ) (h48 : 8 * q + s < cfg0.N) (hs : s < 8) (k : Fin 512) (cc : Fin 256)
    (hc : q * 256 + cc.val < 1376) :
    k0_pay6 (F := Ideal) (blk1 m c ⟨8 * q + s, h48⟩) (ix3 (grp4 k) (row128 k) cc)
      = (m ((c : Thread nD τ).loc main_arg1) : IVec ⟨2, ![4096, 1376]⟩ 32)
          (ix2 (Cert.AwqBridge.rowN (8 * q + s) k) (⟨q * 256 + cc.val, hc⟩ : Fin 1376)) := by
  have hk : (⟨(grp4 k).val * 128 + (row128 k).val, by have := (grp4 k).isLt; have := (row128 k).isLt; omega⟩ : Fin 512) = k :=
    Fin.ext (by show k.val / 128 * 128 + k.val % 128 = k.val; omega)
  have hcol : (Blocks.colOf ⟨8 * q + s, h48⟩ cc).val = q * 256 + cc.val := by
    show (8 * q + s) / 8 * 256 + cc.val = q * 256 + cc.val
    omega
  refine (pay6_apply _ (grp4 k) (row128 k) cc).trans ?_
  refine (congrArg (fun i => blk1 m c ⟨8 * q + s, h48⟩ (ix2 i cc)) hk).trans ?_
  refine (Blocks.iblk1_apply m c ⟨8 * q + s, h48⟩ k cc).trans ?_
  refine (congrFun (HostSide.V_v0 (F := Ideal) m c) _).trans ?_
  refine (Cert.KernelIdeal.Layout.qwPad_apply _ _ _ (hcol ▸ hc)).trans ?_
  exact congrArg (fun i => (m ((c : Thread nD τ).loc main_arg1) : IVec ⟨2, ![4096, 1376]⟩ 32)
    (ix2 (Cert.AwqBridge.rowN (8 * q + s) k) i)) (Fin.ext hcol)

/-- The point's zero-point block at group k / 128 and column cc is the packed zero point of row 512·s + k's group at
    packed column 256·q + cc, when that column is not padding. -/
theorem z_entry (c : Dev nD) (q s : ℕ) (h48 : 8 * q + s < cfg0.N) (hs : s < 8) (k : Fin 512) (cc : Fin 256)
    (hc : q * 256 + cc.val < 1376) :
    k0_pay5 (F := Ideal) (blk2 m c ⟨8 * q + s, h48⟩) (ix2 (grp4 k) cc)
      = (m ((c : Thread nD τ).loc main_arg3) : IVec ⟨2, ![32, 1376]⟩ 32)
          (ix2 (Cert.AwqBridge.grpN (8 * q + s) k) (⟨q * 256 + cc.val, hc⟩ : Fin 1376)) := by
  have hcol : (Blocks.colOf ⟨8 * q + s, h48⟩ cc).val = q * 256 + cc.val := by
    show (8 * q + s) / 8 * 256 + cc.val = q * 256 + cc.val
    omega
  refine (pay5_apply _ (grp4 k) cc).trans ?_
  refine (Blocks.iblk2_apply m c ⟨8 * q + s, h48⟩ (grp4 k) cc).trans ?_
  refine (congrFun (HostSide.V_v2 (F := Ideal) m c) _).trans ?_
  refine (Cert.KernelIdeal.Layout.qzPad_apply _ _ _ (hcol ▸ hc)).trans ?_
  exact congrArg (fun i => (m ((c : Thread nD τ).loc main_arg3) : IVec ⟨2, ![32, 1376]⟩ 32)
    (ix2 (Cert.AwqBridge.grpN (8 * q + s) k) i)) (Fin.ext hcol)

/-- The point's scale block, field j's row, at group k / 128 and column cc is the scale of row 512·s + k's group at
    output column 8·(256·q + cc) + j, when the packed column is not padding. -/
theorem s_entry (c : Dev nD) (q s : ℕ) (h48 : 8 * q + s < cfg0.N) (hs : s < 8) (j : Fin 8) (k : Fin 512) (cc : Fin 256)
    (hc : q * 256 + cc.val < 1376) (hb : (q * 256 + cc.val) * 8 + j.val < 11008) :
    View.ld (blk3 m c ⟨8 * q + s, h48⟩) (scaleRect j) (ix3 (grp4 k) (0 : Fin 1) cc)
      = (m ((c : Thread nD τ).loc main_arg2) : FVec Ideal ⟨2, ![32, 11008]⟩ .f32)
          (ix2 (Cert.AwqBridge.grpN (8 * q + s) k) (⟨(q * 256 + cc.val) * 8 + j.val, hb⟩ : Fin 11008)) := by
  have hcol : (Blocks.colOf ⟨8 * q + s, h48⟩ cc).val = q * 256 + cc.val := by
    show (8 * q + s) / 8 * 256 + cc.val = q * 256 + cc.val
    omega
  show blk3 m c ⟨8 * q + s, h48⟩ ((scaleRect j).idx (ix3 (grp4 k) (0 : Fin 1) cc)) = _
  refine (congrArg (blk3 m c ⟨8 * q + s, h48⟩) (scaleRect_idx j (grp4 k) cc)).trans ?_
  refine (Blocks.iblk3_apply m c ⟨8 * q + s, h48⟩ (grp4 k) j cc).trans ?_
  refine (congrFun (HostSide.V_v5 (F := Ideal) m c) _).trans ?_
  refine (Cert.KernelIdeal.Layout.scPerm_apply _ _ j _ (hcol ▸ hc)).trans ?_
  exact congrArg (fun i => (m ((c : Thread nD τ).loc main_arg2) : FVec Ideal ⟨2, ![32, 11008]⟩ .f32)
    (ix2 (Cert.AwqBridge.grpN (8 * q + s) k) i)) (Fin.ext (congrArg (· * 8 + j.val) hcol))

/-- The contribution of point 8·q + s at field j, row r and column c of its tile is the addend of that point at packed
    column 256·q + c, when that column is one of the 1376 unpadded ones. -/
theorem contribN_eq (c : Dev nD) (q s : ℕ) (hq : q < 6) (hs : s < 8) (j : Fin 8) (r : Fin 1024) (cc : Fin 256)
    (hc : q * 256 + cc.val < 1376) :
    contribN m c (8 * q + s) (j, r, cc)
      = Cert.AwqBridge.addend (m ((c : Thread nD τ).loc main_arg0)) (m ((c : Thread nD τ).loc main_arg1)) (m ((c : Thread nD τ).loc main_arg2)) (m ((c : Thread nD τ).loc main_arg3))
          (8 * q + s) j r ⟨q * 256 + cc.val, hc⟩ := by
  have h48 := point_lt q s hq hs
  unfold contribN
  rw [dif_pos h48]
  unfold contrib
  refine (part_apply (shiftOf j) _ _ _ _ r cc).trans ?_
  unfold Cert.AwqBridge.addend
  refine Finset.sum_congr rfl fun k _ => ?_
  rw [x_entry m c q s h48 r k, w_entry m c q s h48 hs k cc hc, z_entry m c q s h48 hs k cc hc,
    s_entry m c q s h48 hs j k cc hc (by have := j.isLt; omega)]

end Cert.KernelIdeal.Addend
end
-- ==== Proof.KernelValue.lean ====
/-
  The kernel program's run, read back: its result is the specification's function of the four arguments.

  The program returns the host operations after the region applied to the region's output array. That array holds,
  at (j, r, c), zero plus the eight contributions of column tile c / 256; the re-laying sends result entry (r, n) to
  array entry (n mod 8, r, n / 8), whose packed column n / 8 is below 1376, so every contribution is an addend over
  the arguments themselves; and zero plus the eight addends is the specification's sum over all 4096 rows.
-/
import proofs.«428204_j79422535238420_3_alg».proof.Proof.Final
import proofs.«428204_j79422535238420_3_alg».proof.Proof.HostSide
import proofs.«428204_j79422535238420_3_alg».proof.Proof.Addend
import proofs.«428204_j79422535238420_3_alg».proof.Proof.Bridge

noncomputable section
open Idealize.ShloMosaic Idealize.ShloMosaic.TcCoe Idealize.SL.Sem Idealize.ShloMosaic.ValueIdx
namespace Cert.KernelIdeal.KernelValue
open Cert.KernelIdeal Cert.KernelIdeal.Gen

variable (m : (ℓ : Loc nD τ sig) → Buf (Elt Ideal) ℓ) (ρ : Dev nD → PrngReg)

/-- The specification's function of core `c`'s four argument arrays as launched. -/
abbrev spec (c : Dev nD) : FVec Ideal S1024x11008 .f32 :=
  Cert.AwqSpec.G (m ((c.tc : Thread nD τ).loc main_arg0)) (m ((c.tc : Thread nD τ).loc main_arg1)) (m ((c.tc : Thread nD τ).loc main_arg2)) (m ((c.tc : Thread nD τ).loc main_arg3))

/-- What the host operations after the region return is the specification's function of the arguments. -/
theorem result_eq (c : Dev nD) :
    (Pipeline.afterTail₀ cfgs (dats m) 0 (V0 m) [hostOps1] c main_v10 : FVec Ideal S1024x11008 .f32) = spec m c := by
  funext i
  obtain ⟨r, n, rfl⟩ : ∃ (r : Fin 1024) (n : Fin 11008), i = ix2 r n := ⟨i 0, i 1, eq_ix2 i⟩
  rw [HostSide.tail_v10, Layout.unperm_apply, Final.final_out, Final.Gout_apply]
  have hn := n.isLt
  have hq : n.val / 8 / 256 < 6 := by omega
  have hc : n.val / 8 / 256 * 256 + n.val / 8 % 256 < 1376 := by omega
  rw [Finset.sum_congr rfl (fun s hs => Addend.contribN_eq m c (n.val / 8 / 256) s hq (Finset.mem_range.mp hs)
    (⟨n.val % 8, Nat.mod_lt _ (by decide)⟩ : Fin 8) r (⟨n.val / 8 % 256, Nat.mod_lt _ (by decide)⟩ : Fin 256) hc)]
  have hcol : (⟨n.val / 8 / 256 * 256 + n.val / 8 % 256, hc⟩ : Fin 1376) = Cert.AwqSpec.colOf n :=
    Fin.ext (by show n.val / 8 / 256 * 256 + n.val / 8 % 256 = n.val / 8; omega)
  rw [hcol]
  exact Cert.AwqBridge.bridge _ _ _ _ (n.val / 8 / 256) r n

/-- Every weakly fair execution of the program ends with its result at the specification's function of the
    arguments, and the arguments as launched. -/
theorem run : θ_run defs (onTc (τ := τ) (main (F := Ideal))) ⟨m, fun _ => 0, ρ⟩ fun r => ∀ c : Dev nD,
      r.2.mem ((c.tc : Thread nD τ).loc main_v10) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KernelValue
end
-- ==== Proof.RefRun.lean ====
/-
  The reference program's run, read back. @main is a straight line of 35 host operations: written as a list,
  every weakly fair execution terminates with each buffer at the fold of the operations' results over the launch
  contents. The result buffer's term is stated over named intermediates:

    shifts₀, shifts₁     the eight bit offsets 4·σ(j), σ = (0, 4, 1, 5, 2, 6, 3, 7): the literal table times a broadcast 4
    fields w s           a packed array [R, 1376] shifted down by each offset and masked to four bits, [R, 1376, 8],
                         read as [R, 11008] in row-major order
    weightF, zeroF       the fields of qweight as floats; those of qzeros as floats, each of the 32 rows repeated 128 times
    scaleF               the scales, each of the 32 rows repeated 128 times
    weight               (weightF − zeroF) · scaleF
    result               x contracted with weight over x's axis 1 and weight's axis 0.
-/
import proofs.«428204_j79422535238420_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 35 operations, in order. -/
abbrev ops : List (HloOp τ sig (Elt F)) :=
  [ nullary main_c (fun i => lit0 (S8.rowMajor i)),
    nullary main_c_0 (fun i => lit1 (S8.rowMajor i)),
    nullary main_c_1 (constantI S_ 32 4#32),
    unary main_c_1 main_v0 (broadcastInDim S8 ![] bcast_S_S8 : (⟨S_, .i32⟩ : BufTy).Contents (Elt F) → (⟨S8, .i32⟩ : BufTy).Contents (Elt F)),
    binary main_c main_v0 main_v1 (muli : (⟨S8, .i32⟩ : BufTy).Contents (Elt F) → (⟨S8, .i32⟩ : BufTy).Contents (Elt F) → (⟨S8, .i32⟩ : BufTy).Contents (Elt F)),
    unary main_arg1 main_v2 (broadcastInDim S4096x1376x1 ![0, 1] bcast_S4096x1376_S4096x1376x1_0_1 : (⟨S4096x1376, .i32⟩ : BufTy).Contents (Elt F) → (⟨S4096x1376x1, .i32⟩ : BufTy).Contents (Elt F)),
    unary main_v1 main_v3 (broadcastInDim S1x1x8 ![2] bcast_S8_S1x1x8_2 : (⟨S8, .i32⟩ : BufTy).Contents (Elt F) → (⟨S1x1x8, .i32⟩ : BufTy).Contents (Elt F)),
    unary main_v2 main_v4 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    unary main_v3 main_v5 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    binary main_v4 main_v5 main_v6 (Host.shrsi : (⟨S4096x1376x8, .i32⟩ : BufTy).Contents (Elt F) → (⟨S4096x1376x8, .i32⟩ : BufTy).Contents (Elt F) → (⟨S4096x1376x8, .i32⟩ : BufTy).Contents (Elt F)),
    nullary main_c_2 (constantI S_ 32 15#32),
    unary main_c_2 main_v7 (broadcastInDim S4096x1376x8 ![] bcast_S_S4096x1376x8 : (⟨S_, .i32⟩ : BufTy).Contents (Elt F) → (⟨S4096x1376x8, .i32⟩ : BufTy).Contents (Elt F)),
    binary main_v6 main_v7 main_v8 (andi : (⟨S4096x1376x8, .i32⟩ : BufTy).Contents (Elt F) → (⟨S4096x1376x8, .i32⟩ : BufTy).Contents (Elt F) → (⟨S4096x1376x8, .i32⟩ : BufTy).Contents (Elt F)),
    reshape main_v8 main_v9 rfl shapeCasts_S4096x1376x8_S4096x11008,
    unary main_v9 main_v10 (sitofp .f32 : (⟨S4096x11008, .i32⟩ : BufTy).Contents (Elt F) → (⟨S4096x11008, .f32⟩ : BufTy).Contents (Elt F)),
    nullary main_c_3 (constantI S_ 32 4#32),
    unary main_c_3 main_v11 (broadcastInDim S8 ![] bcast_S_S8 : (⟨S_, .i32⟩ : BufTy).Contents (Elt F) → (⟨S8, .i32⟩ : BufTy).Contents (Elt F)),
    binary main_c_0 main_v11 main_v12 (muli : (⟨S8, .i32⟩ : BufTy).Contents (Elt F) → (⟨S8, .i32⟩ : BufTy).Contents (Elt F) → (⟨S8, .i32⟩ : BufTy).Contents (Elt F)),
    unary main_arg3 main_v13 (broadcastInDim S32x1376x1 ![0, 1] bcast_S32x1376_S32x1376x1_0_1 : (⟨S32x1376, .i32⟩ : BufTy).Contents (Elt F) → (⟨S32x1376x1, .i32⟩ : BufTy).Contents (Elt F)),
    unary main_v12 main_v14 (broadcastInDim S1x1x8 ![2] bcast_S8_S1x1x8_2 : (⟨S8, .i32⟩ : BufTy).Contents (Elt F) → (⟨S1x1x8, .i32⟩ : BufTy).Contents (Elt F)),
    unary main_v13 main_v15 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    unary main_v14 main_v16 (broadcastInDim S32x1376x8 ![0, 1, 2] bcast_S1x1x8_S32x1376x8_0_1_2 : (⟨S1x1x8, .i32⟩ : BufTy).Contents (Elt F) → (⟨S32x1376x8, .i32⟩ : BufTy).Contents (Elt F)),
    binary main_v15 main_v16 main_v17 (Host.shrsi : (⟨S32x1376x8, .i32⟩ : BufTy).Contents (Elt F) → (⟨S32x1376x8, .i32⟩ : BufTy).Contents (Elt F) → (⟨S32x1376x8, .i32⟩ : BufTy).Contents (Elt F)),
    nullary main_c_4 (constantI S_ 32 15#32),
    unary main_c_4 main_v18 (broadcastInDim S32x1376x8 ![] bcast_S_S32x1376x8 : (⟨S_, .i32⟩ : BufTy).Contents (Elt F) → (⟨S32x1376x8, .i32⟩ : BufTy).Contents (Elt F)),
    binary main_v17 main_v18 main_v19 (andi : (⟨S32x1376x8, .i32⟩ : BufTy).Contents (Elt F) → (⟨S32x1376x8, .i32⟩ : BufTy).Contents (Elt F) → (⟨S32x1376x8, .i32⟩ : BufTy).Contents (Elt F)),
    reshape main_v19 main_v20 rfl shapeCasts_S32x1376x8_S32x11008,
    unary main_v20 main_v21 (sitofp .f32 : (⟨S32x11008, .i32⟩ : BufTy).Contents (Elt F) → (⟨S32x11008, .f32⟩ : BufTy).Contents (Elt F)),
    unary main_v21 main_v22 (broadcastInDim S32x128x11008 ![0, 2] bcast_S32x11008_S32x128x11008_0_2 : (⟨S32x11008, .f32⟩ : BufTy).Contents (Elt F) → (⟨S32x128x11008, .f32⟩ : BufTy).Contents (Elt F)),
    reshape main_v22 main_v23 rfl shapeCasts_S32x128x11008_S4096x11008,
    unary main_arg2 main_v24 (broadcastInDim S32x128x11008 ![0, 2] bcast_S32x11008_S32x128x11008_0_2 : (⟨S32x11008, .f32⟩ : BufTy).Contents (Elt F) → (⟨S32x128x11008, .f32⟩ : BufTy).Contents (Elt F)),
    reshape main_v24 main_v25 rfl shapeCasts_S32x128x11008_S4096x11008,
    binary main_v10 main_v23 main_v26 (subf : (⟨S4096x11008, .f32⟩ : BufTy).Contents (Elt F) → (⟨S4096x11008, .f32⟩ : BufTy).Contents (Elt F) → (⟨S4096x11008, .f32⟩ : BufTy).Contents (Elt F)),
    binary main_v26 main_v25 main_v27 (mulf : (⟨S4096x11008, .f32⟩ : BufTy).Contents (Elt F) → (⟨S4096x11008, .f32⟩ : BufTy).Contents (Elt F) → (⟨S4096x11008, .f32⟩ : BufTy).Contents (Elt F)),
    binary main_arg0 main_v27 main_v28 ((fun l r => Host.dotGeneral dot_S1024x4096_S4096x11008_S1024x11008_1_0_0_1_n_n none l r) : (⟨S1024x4096, .f32⟩ : BufTy).Contents (Elt F) → (⟨S4096x11008, .f32⟩ : BufTy).Contents (Elt F) → (⟨S1024x11008, .f32⟩ : BufTy).Contents (Elt F)) ]

/-! ## The composed term, over named intermediates -/

/-- The bit offsets of qweight's fields: the first literal table times four. -/
def shifts₀ : (⟨S8, .i32⟩ : BufTy).Contents (Elt F) :=
  muli (fun i => lit0 (S8.rowMajor i)) (broadcastInDim S8 ![] bcast_S_S8 (constantI S_ 32 4#32))

/-- The bit offsets of qzeros' fields: the second literal table times four. -/
def shifts₁ : (⟨S8, .i32⟩ : BufTy).Contents (Elt F) :=
  muli (fun i => lit1 (S8.rowMajor i)) (broadcastInDim S8 ![] bcast_S_S8 (constantI S_ 32 4#32))

/-- qweight's fields: each word shifted down by each offset and masked to four bits, in row-major order at [4096, 11008]. -/
def fieldsW (qw : (⟨S4096x1376, .i32⟩ : BufTy).Contents (Elt F)) : (⟨S4096x11008, .i32⟩ : BufTy).Contents (Elt F) :=
  shapeCast S4096x11008
    (andi
      (Host.shrsi
        (broadcastInDim S4096x1376x8 ![0, 1, 2] bcast_S4096x1376x1_S4096x1376x8_0_1_2
          (broadcastInDim S4096x1376x1 ![0, 1] bcast_S4096x1376_S4096x1376x1_0_1 qw))
        (broadcastInDim S4096x1376x8 ![0, 1, 2] bcast_S1x1x8_S4096x1376x8_0_1_2
          (broadcastInDim S1x1x8 ![2] bcast_S8_S1x1x8_2 (shifts₀ (F := F)))))
      (broadcastInDim S4096x1376x8 ![] bcast_S_S4096x1376x8 (constantI S_ 32 15#32)))
    shapeCasts_S4096x1376x8_S4096x11008

/-- qzeros' fields, likewise, at [32, 11008]. -/
def fieldsZ (qz : (⟨S32x1376, .i32⟩ : BufTy).Contents (Elt F)) : (⟨S32x11008, .i32⟩ : BufTy).Contents (Elt F) :=
  shapeCast S32x11008
    (andi
      (Host.shrsi
        (broadcastInDim S32x1376x8 ![0, 1, 2] bcast_S32x1376x1_S32x1376x8_0_1_2
          (broadcastInDim S32x1376x1 ![0, 1] bcast_S32x1376_S32x1376x1_0_1 qz))
        (broadcastInDim S32x1376x8 ![0, 1, 2] bcast_S1x1x8_S32x1376x8_0_1_2
          (broadcastInDim S1x1x8 ![2] bcast_S8_S1x1x8_2 (shifts₁ (F := F)))))
      (broadcastInDim S32x1376x8 ![] bcast_S_S32x1376x8 (constantI S_ 32 15#32)))
    shapeCasts_S32x1376x8_S32x11008

/-- qweight's fields as floats. -/
def weightF (qw : (⟨S4096x1376, .i32⟩ : BufTy).Contents (Elt F)) : (⟨S4096x11008, .f32⟩ : BufTy).Contents (Elt F) :=
  sitofp .f32 (fieldsW (F := F) qw)

/-- qzeros' fields as floats, each of the 32 rows repeated over its 128 rows. -/
def zeroF (qz : (⟨S32x1376, .i32⟩ : BufTy).Contents (Elt F)) : (⟨S4096x11008, .f32⟩ : BufTy).Contents (Elt F) :=
  shapeCast S4096x11008
    (broadcastInDim S32x128x11008 ![0, 2] bcast_S32x11008_S32x128x11008_0_2 (sitofp .f32 (fieldsZ (F := F) qz) : (⟨S32x11008, .f32⟩ : BufTy).Contents (Elt F)))
    shapeCasts_S32x128x11008_S4096x11008

/-- The scales, each of the 32 rows repeated over its 128 rows. -/
def scaleF (sc : (⟨S32x11008, .f32⟩ : BufTy).Contents (Elt F)) : (⟨S4096x11008, .f32⟩ : BufTy).Contents (Elt F) :=
  shapeCast S4096x11008 (broadcastInDim S32x128x11008 ![0, 2] bcast_S32x11008_S32x128x11008_0_2 sc)
    shapeCasts_S32x128x11008_S4096x11008

/-- The dequantized weight: (fields of qweight − fields of qzeros) · scales. -/
def weight (qw : (⟨S4096x1376, .i32⟩ : BufTy).Contents (Elt F)) (sc : (⟨S32x11008, .f32⟩ : BufTy).Contents (Elt F)) (qz : (⟨S32x1376, .i32⟩ : BufTy).Contents (Elt F)) :
    (⟨S4096x11008, .f32⟩ : BufTy).Contents (Elt F) :=
  mulf (subf (weightF qw) (zeroF qz)) (scaleF sc)

/-- The result: x contracted with the dequantized weight. -/
def result (x : (⟨S1024x4096, .f32⟩ : BufTy).Contents (Elt F)) (qw : (⟨S4096x1376, .i32⟩ : BufTy).Contents (Elt F)) (sc : (⟨S32x11008, .f32⟩ : BufTy).Contents (Elt F))
    (qz : (⟨S32x1376, .i32⟩ : BufTy).Contents (Elt F)) : (⟨S1024x11008, .f32⟩ : BufTy).Contents (Elt F) :=
  Host.dotGeneral dot_S1024x4096_S4096x11008_S1024x11008_1_0_0_1_n_n none x (weight qw sc qz)

/-! ## The run -/

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., unary_bufs_sub .., reshape_bufs_sub .., unary_bufs_sub .., reshape_bufs_sub .., binary_bufs_sub .., binary_bufs_sub .., binary_bufs_sub ..⟩

/-- On every device, for any float values, from any memory with zero counters: every weakly fair execution of
    @main terminates with the result buffer at the composed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (by after_results_simp <;> rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.RefValue.lean ====
/-
  The reference's composed term, read at an index, is the specification.

  The result at (r, n) is the host dot_general's sum over the one contracted axis, Σ_k x[r, k] · weight[k, n]. The
  weight at (k, n) is read through each operation in turn: a product and a difference of floats elementwise; an
  integer read as a float is the integer as a real; an array [R, 1376, 8] read as [R, 11008] in row-major order has
  at column n the element (n / 8, n % 8), because 8 · (n / 8) + n % 8 = n; an array [32, 128, 11008] read as
  [4096, 11008] has at row k the element (k / 128, k % 128), because 128 · (k / 128) + k % 128 = k; a broadcast reads
  its operand at the coordinates it keeps. The bit offset of field j is the literal table's entry times four,
  one of 0, 16, 4, 20, 8, 24, 12, 28: below the word's width, so the host's arithmetic shift by it is the
  plain arithmetic shift.
-/
import proofs.«428204_j79422535238420_3_alg».proof.Proof.RefRun
import proofs.«428204_j79422535238420_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.RefRun
  Cert.AwqSpec

/-! ## The integer side: a field of a packed word -/

/-- A rank-1 index's row-major position is its coordinate. -/
theorem rowMajor_S8 (j : Fin 8) : S8.rowMajor (ix1 j) = j := Fin.ext (Shape.rowMajor_val_one _)

/-- The offsets of qweight's fields: the literal table times four is four times σ. -/
theorem shifts₀_apply (j : Fin 8) : shifts₀ (F := Ideal) (ix1 j) = shiftOf j := by
  show IntOp.muli (lit0 (S8.rowMajor (ix1 j))) 4#32 = shiftOf j
  rw [rowMajor_S8]
  fin_cases j <;> rfl

/-- The offsets of qzeros' fields, likewise. -/
theorem shifts₁_apply (j : Fin 8) : shifts₁ (F := Ideal) (ix1 j) = shiftOf j := by
  show IntOp.muli (lit1 (S8.rowMajor (ix1 j))) 4#32 = shiftOf j
  rw [rowMajor_S8]
  fin_cases j <;> rfl

/-- Every offset is below the word's width: the host's arithmetic shift by it is the plain one. -/
theorem shrsi_shiftOf (w : BitVec 32) (j : Fin 8) : IntOp.shrsi .host w (shiftOf j) = w.sshiftRight' (shiftOf j) := by
  unfold IntOp.shrsi
  exact if_pos (by fin_cases j <;> decide)

/-- A packed array [R, 1376] shifted by each of eight offsets and masked, [R, 1376, 8], read as [R, 11008]: at (k, n)
    it is word (k, n / 8) shifted by offset n % 8 and masked. -/
theorem fields_apply {R : ℕ} (w : IVec ⟨2, ![R, 1376]⟩ 32) (s : IVec ⟨1, ![8]⟩ 32)
    (h1 : (⟨2, ![R, 1376]⟩ : Shape).BroadcastsInDim ⟨3, ![R, 1376, 1]⟩ (![0, 1] : Fin 2 → Fin 3))
    (h2 : (⟨3, ![R, 1376, 1]⟩ : Shape).BroadcastsInDim ⟨3, ![R, 1376, 8]⟩ (![0, 1, 2] : Fin 3 → Fin 3))
    (h3 : (⟨1, ![8]⟩ : Shape).BroadcastsInDim ⟨3, ![1, 1, 8]⟩ (![2] : Fin 1 → Fin 3))
    (h4 : (⟨3, ![1, 1, 8]⟩ : Shape).BroadcastsInDim ⟨3, ![R, 1376, 8]⟩ (![0, 1, 2] : Fin 3 → Fin 3))
    (h5 : (⟨0, ![]⟩ : Shape).BroadcastsInDim ⟨3, ![R, 1376, 8]⟩ (![] : Fin 0 → Fin 3))
    (h6 : (⟨3, ![R, 1376, 8]⟩ : Shape).ShapeCasts ⟨2, ![R, 11008]⟩) (k : Fin R) (n : Fin 11008) :
    shapeCast ⟨2, ![R, 11008]⟩
        (andi
          (Host.shrsi
            (broadcastInDim ⟨3, ![R, 1376, 8]⟩ ![0, 1, 2] h2 (broadcastInDim ⟨3, ![R, 1376, 1]⟩ ![0, 1] h1 w))
            (broadcastInDim ⟨3, ![R, 1376, 8]⟩ ![0, 1, 2] h4 (broadcastInDim ⟨3, ![1, 1, 8]⟩ ![2] h3 s)))
          (broadcastInDim ⟨3, ![R, 1376, 8]⟩ ![] h5 (constantI ⟨0, ![]⟩ 32 15#32))) h6 (ix2 k n)
      = IntOp.andi (IntOp.shrsi .host (w (ix2 k (colOf n))) (s (ix1 (slotOf n)))) 15#32 := by
  refine (shapeCast_apply _ h6 (ix2 k n) (ix3 k (colOf n) (slotOf n)) ?_).trans ?_
  · rw [Shape.rowMajor_val_three, Shape.rowMajor_val_two]
    show (k.val * 1376 + n.val / 8) * 8 + n.val % 8 = k.val * 11008 + n.val
    omega
  · have e1 : broadcastInDim ⟨3, ![R, 1376, 8]⟩ ![0, 1, 2] h2 (broadcastInDim ⟨3, ![R, 1376, 1]⟩ ![0, 1] h1 w)
          (ix3 k (colOf n) (slotOf n)) = w (ix2 k (colOf n)) :=
      (broadcastInDim_apply _ h2 _ _ (ix3 k (colOf n) (0 : Fin 1)) fun a => match a with
        | ⟨0, _⟩ => by
          show k.val = if R = 1 then 0 else k.val
          have := k.isLt
          split <;> omega
        | ⟨1, _⟩ => rfl
        | ⟨2, _⟩ => rfl).trans
      (broadcastInDim_apply _ h1 w _ (ix2 k (colOf n)) fun a => match a with
        | ⟨0, _⟩ => by
          show k.val = if R = 1 then 0 else k.val
          have := k.isLt
          split <;> omega
        | ⟨1, _⟩ => rfl)
    have e2 : broadcastInDim ⟨3, ![R, 1376, 8]⟩ ![0, 1, 2] h4 (broadcastInDim ⟨3, ![1, 1, 8]⟩ ![2] h3 s)
          (ix3 k (colOf n) (slotOf n)) = s (ix1 (slotOf n)) :=
      (broadcastInDim_apply _ h4 _ _ (ix3 (0 : Fin 1) (0 : Fin 1) (slotOf n)) fun a => match a with
        | ⟨0, _⟩ => rfl
        | ⟨1, _⟩ => rfl
        | ⟨2, _⟩ => rfl).trans
      (broadcastInDim_apply _ h3 s _ (ix1 (slotOf n)) fun a => match a with
        | ⟨0, _⟩ => rfl)
    show IntOp.andi (IntOp.shrsi .host
        (broadcastInDim ⟨3, ![R, 1376, 8]⟩ ![0, 1, 2] h2 (broadcastInDim ⟨3, ![R, 1376, 1]⟩ ![0, 1] h1 w) (ix3 k (colOf n) (slotOf n)))
        (broadcastInDim ⟨3, ![R, 1376, 8]⟩ ![0, 1, 2] h4 (broadcastInDim ⟨3, ![1, 1, 8]⟩ ![2] h3 s) (ix3 k (colOf n) (slotOf n)))) 15#32 = _
    rw [e1, e2]

/-- qweight's fields at (k, n): field n % 8 of word (k, n / 8). -/
theorem fieldsW_apply (qw : IVec S4096x1376 32) (k : Fin 4096) (n : Fin 11008) :
    fieldsW (F := Ideal) qw (ix2 k n) = nib (qw (ix2 k (colOf n))) (slotOf n) := by
  refine (fields_apply qw (shifts₀ (F := Ideal)) _ _ _ _ _ _ k n).trans ?_
  rw [shifts₀_apply, shrsi_shiftOf]
  rfl

/-- qzeros' fields at (g, n): field n % 8 of word (g, n / 8). -/
theorem fieldsZ_apply (qz : IVec S32x1376 32) (g : Fin 32) (n : Fin 11008) :
    fieldsZ (F := Ideal) qz (ix2 g n) = nib (qz (ix2 g (colOf n))) (slotOf n) := by
  refine (fields_apply qz (shifts₁ (F := Ideal)) _ _ _ _ _ _ g n).trans ?_
  rw [shifts₁_apply, shrsi_shiftOf]
  rfl

/-! ## The float side: the dequantized weight -/

/-- An array [32, 11008] with each row repeated 128 times, [32, 128, 11008], read as [4096, 11008]: row k reads row k / 128. -/
theorem rows_apply {α : Type} (v : (⟨2, ![32, 11008]⟩ : Shape).Idx → α)
    (h1 : (⟨2, ![32, 11008]⟩ : Shape).BroadcastsInDim ⟨3, ![32, 128, 11008]⟩ (![0, 2] : Fin 2 → Fin 3))
    (h2 : (⟨3, ![32, 128, 11008]⟩ : Shape).ShapeCasts ⟨2, ![4096, 11008]⟩) (k : Fin 4096) (n : Fin 11008) :
    shapeCast ⟨2, ![4096, 11008]⟩ (broadcastInDim ⟨3, ![32, 128, 11008]⟩ ![0, 2] h1 v) h2 (ix2 k n) = v (ix2 (grpOf k) n) := by
  refine (shapeCast_apply _ h2 (ix2 k n) (ix3 (grpOf k) (⟨k.val % 128, Nat.mod_lt _ (by decide)⟩ : Fin 128) n) ?_).trans ?_
  · rw [Shape.rowMajor_val_three, Shape.rowMajor_val_two]
    show (k.val / 128 * 128 + k.val % 128) * 11008 + n.val = k.val * 11008 + n.val
    omega
  · exact broadcastInDim_apply _ h1 v _ (ix2 (grpOf k) n) fun a => match a with
      | ⟨0, _⟩ => rfl
      | ⟨1, _⟩ => rfl

/-- The dequantized weight at (k, n) is the specification's. -/
theorem weight_apply (qw : IVec S4096x1376 32) (sc : FVec Ideal S32x11008 .f32) (qz : IVec S32x1376 32)
    (k : Fin 4096) (n : Fin 11008) : weight (F := Ideal) qw sc qz (ix2 k n) = W qw sc qz k n := by
  show (FloatOps.sitofp (F := Ideal) .f32 (fieldsW (F := Ideal) qw (ix2 k n)) - zeroF (F := Ideal) qz (ix2 k n))
      * scaleF (F := Ideal) sc (ix2 k n) = _
  have ez : zeroF (F := Ideal) qz (ix2 k n) = toE (nib (qz (ix2 (grpOf k) (colOf n))) (slotOf n)) := by
    refine (rows_apply _ _ _ k n).trans ?_
    show FloatOps.sitofp (F := Ideal) .f32 (fieldsZ (F := Ideal) qz (ix2 (grpOf k) n)) = _
    rw [fieldsZ_apply]
    rfl
  have es : scaleF (F := Ideal) sc (ix2 k n) = sc (ix2 (grpOf k) n) := rows_apply _ _ _ k n
  rw [fieldsW_apply, ez, es]
  rfl

/-! ## The contraction -/

/-- The dot_general's operand indices, axis by axis: the left operand's row is the result's, its column the contracted
    position; the right operand's row is the contracted position, its column the result's. -/
theorem lhs_0 (i : S1024x11008.Idx) (q : dot_S1024x4096_S4096x11008_S1024x11008_1_0_0_1_n_n.contr.Idx) :
    (dot_S1024x4096_S4096x11008_S1024x11008_1_0_0_1_n_n.lhsIdx i q 0).val = (i 0).val := by
  unfold DotDims.lhsIdx
  rw [dif_neg (show ¬(0 : Fin S1024x4096.rank) ∈ dot_S1024x4096_S4096x11008_S1024x11008_1_0_0_1_n_n.lhsBatch by decide),
    dif_pos (show (0 : Fin S1024x4096.rank) ∈ dot_S1024x4096_S4096x11008_S1024x11008_1_0_0_1_n_n.lhsNonContracting by decide)]
  rfl
theorem lhs_1 (i : S1024x11008.Idx) (q : dot_S1024x4096_S4096x11008_S1024x11008_1_0_0_1_n_n.contr.Idx) :
    (dot_S1024x4096_S4096x11008_S1024x11008_1_0_0_1_n_n.lhsIdx i q 1).val = (q ⟨0, by decide⟩).val :=
  dot_S1024x4096_S4096x11008_S1024x11008_1_0_0_1_n_n.lhsIdx_val_of_single rfl i q
theorem rhs_0 (i : S1024x11008.Idx) (q : dot_S1024x4096_S4096x11008_S1024x11008_1_0_0_1_n_n.contr.Idx) :
    (dot_S1024x4096_S4096x11008_S1024x11008_1_0_0_1_n_n.rhsIdx i q 0).val = (q ⟨0, by decide⟩).val :=
  dot_S1024x4096_S4096x11008_S1024x11008_1_0_0_1_n_n.rhsIdx_val_of_single rfl i q
theorem rhs_1 (i : S1024x11008.Idx) (q : dot_S1024x4096_S4096x11008_S1024x11008_1_0_0_1_n_n.contr.Idx) :
    (dot_S1024x4096_S4096x11008_S1024x11008_1_0_0_1_n_n.rhsIdx i q 1).val = (i 1).val := by
  unfold DotDims.rhsIdx
  rw [dif_neg (show ¬(1 : Fin S4096x11008.rank) ∈ dot_S1024x4096_S4096x11008_S1024x11008_1_0_0_1_n_n.rhsBatch by decide),
    dif_pos (show (1 : Fin S4096x11008.rank) ∈ dot_S1024x4096_S4096x11008_S1024x11008_1_0_0_1_n_n.rhsNonContracting by decide)]
  rfl

/-- The host's dot_general at (r, n), at the ideal values: the sum over the contracted coordinate. -/
theorem dot_apply (A : FVec Ideal S1024x4096 .f32) (B : FVec Ideal S4096x11008 .f32) (r : Fin 1024) (n : Fin 11008) :
    Host.dotGeneral (F := Ideal) dot_S1024x4096_S4096x11008_S1024x11008_1_0_0_1_n_n none A B (ix2 r n) = ∑ k : Fin 4096, A (ix2 r k) * B (ix2 k n) := by
  show FloatOps.dotGeneral (F := Ideal) dot_S1024x4096_S4096x11008_S1024x11008_1_0_0_1_n_n none .single A B (ix2 r n) = _
  rw [Ideal.dotGeneral_apply, ← Equiv.sum_comp (contrEquiv1 dot_S1024x4096_S4096x11008_S1024x11008_1_0_0_1_n_n 4096 rfl rfl).symm]
  refine Finset.sum_congr rfl fun k _ => ?_
  have hk := contrEquiv1_symm_val dot_S1024x4096_S4096x11008_S1024x11008_1_0_0_1_n_n 4096 rfl rfl k
  have el : dot_S1024x4096_S4096x11008_S1024x11008_1_0_0_1_n_n.lhsIdx (ix2 r n) ((contrEquiv1 dot_S1024x4096_S4096x11008_S1024x11008_1_0_0_1_n_n 4096 rfl rfl).symm k) = ix2 r k :=
    funext fun a => Fin.ext (by
      match a with
      | ⟨0, _⟩ => exact lhs_0 _ _
      | ⟨1, _⟩ => exact (lhs_1 _ _).trans hk)
  have er : dot_S1024x4096_S4096x11008_S1024x11008_1_0_0_1_n_n.rhsIdx (ix2 r n) ((contrEquiv1 dot_S1024x4096_S4096x11008_S1024x11008_1_0_0_1_n_n 4096 rfl rfl).symm k) = ix2 k n :=
    funext fun a => Fin.ext (by
      match a with
      | ⟨0, _⟩ => exact (rhs_0 _ _).trans hk
      | ⟨1, _⟩ => exact rhs_1 _ _)
  rw [el, er]

/-! ## The result -/

/-- The result at (r, n) is the specification's sum. -/
theorem result_apply (x : FVec Ideal S1024x4096 .f32) (qw : IVec S4096x1376 32) (sc : FVec Ideal S32x11008 .f32)
    (qz : IVec S32x1376 32) (r : Fin 1024) (n : Fin 11008) :
    result (F := Ideal) x qw sc qz (ix2 r n) = Gat x qw sc qz r n := by
  show Host.dotGeneral (F := Ideal) dot_S1024x4096_S4096x11008_S1024x11008_1_0_0_1_n_n none x (weight (F := Ideal) qw sc qz) (ix2 r n) = _
  rw [dot_apply]
  exact Finset.sum_congr rfl fun k _ => by rw [weight_apply]

/-- The reference's composed term is the specification. -/
theorem result_eq (x : FVec Ideal S1024x4096 .f32) (qw : IVec S4096x1376 32) (sc : FVec Ideal S32x11008 .f32)
    (qz : IVec S32x1376 32) :
    Cert.ReferenceIdeal.RefRun.result (F := Ideal) x qw sc qz = Cert.AwqSpec.G x qw sc qz :=
  funext fun i => (congrArg (result (F := Ideal) x qw sc qz) (eq_ix2 i)).trans (result_apply x qw sc qz (i 0) (i 1))

end Cert.ReferenceIdeal.RefValue

end
-- ==== Proof.lean ====
/-
  An int4-packed weight matrix, dequantized group by group and multiplied by x: the kernel against its reference.

  Both programs compute, over the extended reals,

      out[r, n] = Σ_k x[r, k] · (field_j(qweight[k, c]) − field_j(qzeros[k / 128, c])) · scales[k / 128, n],   n = 8·c + j,

  where field j of a packed 32-bit word is the word shifted down arithmetically by 4·σ(j), σ = (0, 4, 1, 5, 2, 6, 3, 7),
  and masked to four bits (Proof/Spec.lean).

  The reference unpacks all eight fields of every word, converts each to a float, subtracts, scales and forms one
  matrix product over all 4096 rows (Proof/RefRun.lean, Proof/RefValue.lean).

  The kernel pads the 1376 packed columns to 1536 and walks a 6 × 8 grid: for each column tile of 256 packed columns
  it accumulates, over eight row tiles of 512 rows, one 1024 × 256 product per field into the field's plane of an
  [8, 1024, 256] block (Proof/Plane.lean, Proof/PlaneValue.lean: one plane; Proof/Pieces.lean: what a point leaves in
  the block; Proof/Acc.lean: the block after a run is zero plus its eight contributions; Proof/Final.lean: the six
  blocks tile the output array), and afterwards re-lays the [8, 1024, 1536] array to [1024, 11008], which drops the
  padded columns (Proof/Layout.lean, Proof/HostSide.lean, Proof/Blocks.lean, Proof/Addend.lean).
  The two differ in three ways, none of which changes the value over the extended reals: the kernel subtracts the two
  fields as integers before converting (both lie in [0, 15], so nothing wraps); it passes x and the dequantized weights
  through a narrower float format (the same real number); and it sums the 4096 rows in eight runs of 512, added in order
  to zero (addition is associative and commutative, with or without infinities). Proof/Bridge.lean has these three facts,
  Proof/KernelValue.lean the kernel's run read back.

  No rewrite was applied when the kernel was idealized, so that conjunct is trivial; the frames of the two kernel
  programs are the generated ones, and the reference's frame is its run with the result dropped.
-/
import proofs.«428204_j79422535238420_3_alg».proof.Defs
import proofs.«428204_j79422535238420_3_alg».proof.Proof.Gen.Kernel
import proofs.«428204_j79422535238420_3_alg».proof.Proof.Gen.Kernel.Skeleton
import proofs.«428204_j79422535238420_3_alg».proof.Proof.Gen.Kernel.Launch
import proofs.«428204_j79422535238420_3_alg».proof.Proof.Gen.Kernel.Points
import proofs.«428204_j79422535238420_3_alg».proof.Proof.Gen.Kernel.Frame
import proofs.«428204_j79422535238420_3_alg».proof.Proof.Gen.KernelIdeal
import proofs.«428204_j79422535238420_3_alg».proof.Proof.Gen.KernelIdeal.Skeleton
import proofs.«428204_j79422535238420_3_alg».proof.Proof.Gen.KernelIdeal.Launch
import proofs.«428204_j79422535238420_3_alg».proof.Proof.Gen.KernelIdeal.Points
import proofs.«428204_j79422535238420_3_alg».proof.Proof.Gen.KernelIdeal.Frame
import proofs.«428204_j79422535238420_3_alg».proof.Proof.Gen.ReferenceIdeal
import proofs.«428204_j79422535238420_3_alg».proof.Proof.Gen.Pre_finite_inputs
import proofs.«428204_j79422535238420_3_alg».proof.Proof.KernelValue
import proofs.«428204_j79422535238420_3_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at the one function of the argument arrays, and the argument arrays agree. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
